-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S4x32768x256 : Shape := ⟨3, ![4, 32768, 256]⟩
abbrev S32768x4 : Shape := ⟨2, ![32768, 4]⟩
abbrev S256x768 : Shape := ⟨2, ![256, 768]⟩
abbrev S4x256x768 : Shape := ⟨3, ![4, 256, 768]⟩
abbrev S5x768 : Shape := ⟨2, ![5, 768]⟩
abbrev S40x256 : Shape := ⟨2, ![40, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S4x32768x256 : S_.BroadcastsInDim S4x32768x256 (![] : Fin 0 → Fin S4x32768x256.rank)
  reducesTo_S4x32768x256_S_d0_1_2 : S4x32768x256.ReducesTo [0, 1, 2] S_
  bcast_S_S256x768 : S_.BroadcastsInDim S256x768 (![] : Fin 0 → Fin S256x768.rank)
  reducesTo_S256x768_S_d0_1 : S256x768.ReducesTo [0, 1] S_
  bcast_S_S4x256x768 : S_.BroadcastsInDim S4x256x768 (![] : Fin 0 → Fin S4x256x768.rank)
  reducesTo_S4x256x768_S_d0_1_2 : S4x256x768.ReducesTo [0, 1, 2] S_
  bcast_S_S5x768 : S_.BroadcastsInDim S5x768 (![] : Fin 0 → Fin S5x768.rank)
  reducesTo_S5x768_S_d0_1 : S5x768.ReducesTo [0, 1] S_
  bcast_S_S40x256 : S_.BroadcastsInDim S40x256 (![] : Fin 0 → Fin S40x256.rank)
  reducesTo_S40x256_S_d0_1 : S40x256.ReducesTo [0, 1] S_
  bcast_S_S32768x4 : S_.BroadcastsInDim S32768x4 (![] : Fin 0 → Fin S32768x4.rank)
  reducesTo_S32768x4_S_d0_1 : S32768x4.ReducesTo [0, 1] S_

variable [Facts]

def fn_part1 {F : FTy → Type} [FloatOps F] (main_arg2 : IVec S32768x4 32) (main_arg6 : FVec F S5x768 .f32) (main_arg7 : FVec F S40x256 .f32) (main_v13 : IVec S_ 1) (main_v16 : IVec S4x256x768 1) : IVec S_ 1 :=
  let main_c_5 : IVec S_ 1 := constantI S_ 1 1#1
  let main_v17 : IVec S_ 1 := (fun x v => Host.reduce IntOp.andi x v reducesTo_S4x256x768_S_d0_1_2 h_S_) main_v16 main_c_5
  let main_v18 : IVec S_ 1 := andi main_v13 main_v17
  let main_v19 : FVec F S5x768 .f32 := Host.absf main_arg6
  let main_cst_6 : FVec F S_ .f32 := constant S_ .f32 0x7F800000#32
  let main_v20 : FVec F S5x768 .f32 := broadcastInDim S5x768 ![] bcast_S_S5x768 main_cst_6
  let main_v21 : IVec S5x768 1 := cmpf .olt main_v19 main_v20
  let main_c_7 : IVec S_ 1 := constantI S_ 1 1#1
  let main_v22 : IVec S_ 1 := (fun x v => Host.reduce IntOp.andi x v reducesTo_S5x768_S_d0_1 h_S_) main_v21 main_c_7
  let main_v23 : IVec S_ 1 := andi main_v18 main_v22
  let main_v24 : FVec F S40x256 .f32 := Host.absf main_arg7
  let main_cst_8 : FVec F S_ .f32 := constant S_ .f32 0x7F800000#32
  let main_v25 : FVec F S40x256 .f32 := broadcastInDim S40x256 ![] bcast_S_S40x256 main_cst_8
  let main_v26 : IVec S40x256 1 := cmpf .olt main_v24 main_v25
  let main_c_9 : IVec S_ 1 := constantI S_ 1 1#1
  let main_v27 : IVec S_ 1 := (fun x v => Host.reduce IntOp.andi x v reducesTo_S40x256_S_d0_1 h_S_) main_v26 main_c_9
  let main_v28 : IVec S_ 1 := andi main_v23 main_v27
  let main_c_10 : IVec S_ 32 := constantI S_ 32 0#32
  let main_v29 : IVec S32768x4 32 := broadcastInDim S32768x4 ![] bcast_S_S32768x4 main_c_10
  let main_v30 : IVec S32768x4 1 := cmpi .sge main_arg2 main_v29
  let main_c_11 : IVec S_ 1 := constantI S_ 1 1#1
  let main_v31 : IVec S_ 1 := (fun x v => Host.reduce IntOp.andi x v reducesTo_S32768x4_S_d0_1 h_S_) main_v30 main_c_11
  let main_v32 : IVec S_ 1 := andi main_v28 main_v31
  main_v32

def fn {F : FTy → Type} [FloatOps F] (main_arg0 : FVec F S32768x256 .f32) (main_arg1 : FVec F S4x32768x256 .f32) (main_arg2 : IVec S32768x4 32) (main_arg3 : IVec S32768x4 1) (main_arg4 : FVec F S256x768 .f32) (main_arg5 : FVec F S4x256x768 .f32) (main_arg6 : FVec F S5x768 .f32) (main_arg7 : FVec F S40x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S4x32768x256 .f32 := Host.absf main_arg1
  let main_cst_0 : FVec F S_ .f32 := constant S_ .f32 0x7F800000#32
  let main_v5 : FVec F S4x32768x256 .f32 := broadcastInDim S4x32768x256 ![] bcast_S_S4x32768x256 main_cst_0
  let main_v6 : IVec S4x32768x256 1 := cmpf .olt main_v4 main_v5
  let main_c_1 : IVec S_ 1 := constantI S_ 1 1#1
  let main_v7 : IVec S_ 1 := (fun x v => Host.reduce IntOp.andi x v reducesTo_S4x32768x256_S_d0_1_2 h_S_) main_v6 main_c_1
  let main_v8 : IVec S_ 1 := andi main_v3 main_v7
  let main_v9 : FVec F S256x768 .f32 := Host.absf main_arg4
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S4x256x768 .f32 := Host.absf main_arg5
  let main_cst_4 : FVec F S_ .f32 := constant S_ .f32 0x7F800000#32
  let main_v15 : FVec F S4x256x768 .f32 := broadcastInDim S4x256x768 ![] bcast_S_S4x256x768 main_cst_4
  let main_v16 : IVec S4x256x768 1 := cmpf .olt main_v14 main_v15
  fn_part1 (F := F) main_arg2 main_arg6 main_arg7 main_v13 main_v16
-- ==== Kernel.lean ====
abbrev S32768x256 : Shape := ⟨2, ![32768, 256]⟩
abbrev S4x32768x256 : Shape := ⟨3, ![4, 32768, 256]⟩
abbrev S32768x4 : Shape := ⟨2, ![32768, 4]⟩
abbrev S256x768 : Shape := ⟨2, ![256, 768]⟩
abbrev S4x256x768 : Shape := ⟨3, ![4, 256, 768]⟩
abbrev S5x768 : Shape := ⟨2, ![5, 768]⟩
abbrev S40x256 : Shape := ⟨2, ![40, 256]⟩
abbrev S_ : Shape := ⟨0, ![]⟩
abbrev S128x256 : Shape := ⟨2, ![128, 256]⟩
abbrev S1 : Shape := ⟨1, ![1]⟩
abbrev S4x32768 : Shape := ⟨2, ![4, 32768]⟩
abbrev S2048x256 : Shape := ⟨2, ![2048, 256]⟩
abbrev S4x2048x256 : Shape := ⟨3, ![4, 2048, 256]⟩
abbrev S4x2048 : Shape := ⟨2, ![4, 2048]⟩
abbrev S2048x768 : Shape := ⟨2, ![2048, 768]⟩
abbrev S1x768 : Shape := ⟨2, ![1, 768]⟩
abbrev S768 : Shape := ⟨1, ![768]⟩
abbrev S2048x128 : Shape := ⟨2, ![2048, 128]⟩
abbrev S1x2048 : Shape := ⟨2, ![1, 2048]⟩
abbrev S2048 : Shape := ⟨1, ![2048]⟩
abbrev S2048x1 : Shape := ⟨2, ![2048, 1]⟩
abbrev S1x2048x256 : Shape := ⟨3, ![1, 2048, 256]⟩
abbrev S1x256x768 : Shape := ⟨3, ![1, 256, 768]⟩

abbrev nBuf : Space → Nat
  | .hbm => 20
  | .vmem => 14
  | .smem => 0
  | _ => 0

abbrev bufTy : (tb : Table) → Fin (tcTables nBuf tb) → BufTy
  | .hbm, ⟨0, _⟩ => ⟨S32768x256, .f32⟩
  | .hbm, ⟨1, _⟩ => ⟨S4x32768x256, .f32⟩
  | .hbm, ⟨2, _⟩ => ⟨S32768x4, .i32⟩
  | .hbm, ⟨3, _⟩ => ⟨S32768x4, .i1⟩
  | .hbm, ⟨4, _⟩ => ⟨S256x768, .f32⟩
  | .hbm, ⟨5, _⟩ => ⟨S4x256x768, .f32⟩
  | .hbm, ⟨6, _⟩ => ⟨S5x768, .f32⟩
  | .hbm, ⟨7, _⟩ => ⟨S40x256, .f32⟩
  | .hbm, ⟨8, _⟩ => ⟨S_, .f32⟩
  | .hbm, ⟨9, _⟩ => ⟨S128x256, .f32⟩
  | .hbm, ⟨10, _⟩ => ⟨S_, .i32⟩
  | .hbm, ⟨11, _⟩ => ⟨S1, .i32⟩
  | .hbm, ⟨12, _⟩ => ⟨S128x256, .f32⟩
  | .hbm, ⟨13, _⟩ => ⟨S128x256, .bf16⟩
  | .hbm, ⟨14, _⟩ => ⟨S256x768, .bf16⟩
  | .hbm, ⟨15, _⟩ => ⟨S4x256x768, .bf16⟩
  | .hbm, ⟨16, _⟩ => ⟨S4x32768, .i32⟩
  | .hbm, ⟨17, _⟩ => ⟨S32768x4, .i32⟩
  | .hbm, ⟨18, _⟩ => ⟨S4x32768, .i32⟩
  | .hbm, ⟨19, _⟩ => ⟨S32768x256, .f32⟩
  | .local _ .vmem, ⟨0, _⟩ => ⟨S2048x256, .f32⟩
  | .local _ .vmem, ⟨1, _⟩ => ⟨S2048x256, .f32⟩
  | .local _ .vmem, ⟨2, _⟩ => ⟨S4x2048x256, .f32⟩
  | .local _ .vmem, ⟨3, _⟩ => ⟨S4x2048x256, .f32⟩
  | .local _ .vmem, ⟨4, _⟩ => ⟨S4x2048, .i32⟩
  | .local _ .vmem, ⟨5, _⟩ => ⟨S4x2048, .i32⟩
  | .local _ .vmem, ⟨6, _⟩ => ⟨S4x2048, .i32⟩
  | .local _ .vmem, ⟨7, _⟩ => ⟨S4x2048, .i32⟩
  | .local _ .vmem, ⟨8, _⟩ => ⟨S256x768, .bf16⟩
  | .local _ .vmem, ⟨9, _⟩ => ⟨S4x256x768, .bf16⟩
  | .local _ .vmem, ⟨10, _⟩ => ⟨S5x768, .f32⟩
  | .local _ .vmem, ⟨11, _⟩ => ⟨S128x256, .bf16⟩
  | .local _ .vmem, ⟨12, _⟩ => ⟨S2048x256, .f32⟩
  | .local _ .vmem, ⟨13, _⟩ => ⟨S2048x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S128x256 : S_.BroadcastsInDim S128x256 (![] : Fin 0 → Fin S128x256.rank)
  bcast_S_S1 : S_.BroadcastsInDim S1 (![] : Fin 0 → Fin S1.rank)
  bitsLt_bf16_f32 : FTy.bits .bf16 < FTy.bits .f32
  transposes_S32768x4_S4x32768_1_0 : S32768x4.Transposes [1, 0] S4x32768
  natLt_1_32 : 1 < 32
  inb_S2048x256_S2048x256_0_0 : ∀ a, (![0, 0] : Fin 2 → Nat) a + S2048x256.size a ≤ S2048x256.size a
  h_S2048x256 : 0 < S2048x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S5x768_S1x768_0_0 : ∀ a, (![0, 0] : Fin 2 → Nat) a + S1x768.size a ≤ S5x768.size a
  h_S1x768 : 0 < S1x768.numel
  shapeCasts_S1x768_S768 : S1x768.ShapeCasts S768
  shapeCasts_S768_S1x768 : S768.ShapeCasts S1x768
  broadcasts_S1x768_S2048x768 : S1x768.Broadcasts S2048x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  iota_S2048x128_d1_w32 : S2048x128.Iotas .tc 32 [1]
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S2048x1 : S2048.ShapeCasts S2048x1
  shapeCasts_S2048x1_S2048x1 : S2048x1.ShapeCasts S2048x1
  broadcasts_S2048x1_S2048x256 : S2048x1.Broadcasts S2048x256
  broadcasts_S2048x1_S2048x128 : S2048x1.Broadcasts S2048x128
  inb_S4x2048x256_S1x2048x256_0_0_0 : ∀ a, (![0, 0, 0] : Fin 3 → Nat) a + S1x2048x256.size a ≤ S4x2048x256.size a
  h_S1x2048x256 : 0 < S1x2048x256.numel
  shapeCasts_S1x2048x256_S2048x256 : S1x2048x256.ShapeCasts S2048x256
  inb_S4x256x768_S1x256x768_0_0_0 : ∀ a, (![0, 0, 0] : Fin 3 → Nat) a + S1x256x768.size a ≤ S4x256x768.size a
  h_S1x256x768 : 0 < S1x256x768.numel
  shapeCasts_S1x256x768_S256x768 : S1x256x768.ShapeCasts S256x768
  inb_S5x768_S1x768_1_0 : ∀ a, (![1, 0] : Fin 2 → Nat) a + S1x768.size a ≤ S5x768.size a
  inb_S4x2048_S1x2048_1_0 : ∀ a, (![1, 0] : Fin 2 → Nat) a + S1x2048.size a ≤ S4x2048.size a
  inb_S4x2048x256_S1x2048x256_1_0_0 : ∀ a, (![1, 0, 0] : Fin 3 → Nat) a + S1x2048x256.size a ≤ S4x2048x256.size a
  inb_S4x256x768_S1x256x768_1_0_0 : ∀ a, (![1, 0, 0] : Fin 3 → Nat) a + S1x256x768.size a ≤ S4x256x768.size a
  inb_S5x768_S1x768_2_0 : ∀ a, (![2, 0] : Fin 2 → Nat) a + S1x768.size a ≤ S5x768.size a
  inb_S4x2048_S1x2048_2_0 : ∀ a, (![2, 0] : Fin 2 → Nat) a + S1x2048.size a ≤ S4x2048.size a
  inb_S4x2048x256_S1x2048x256_2_0_0 : ∀ a, (![2, 0, 0] : Fin 3 → Nat) a + S1x2048x256.size a ≤ S4x2048x256.size a
  inb_S4x256x768_S1x256x768_2_0_0 : ∀ a, (![2, 0, 0] : Fin 3 → Nat) a + S1x256x768.size a ≤ S4x256x768.size a
  inb_S5x768_S1x768_3_0 : ∀ a, (![3, 0] : Fin 2 → Nat) a + S1x768.size a ≤ S5x768.size a
  inb_S4x2048_S1x2048_3_0 : ∀ a, (![3, 0] : Fin 2 → Nat) a + S1x2048.size a ≤ S4x2048.size a
  inb_S4x2048x256_S1x2048x256_3_0_0 : ∀ a, (![3, 0, 0] : Fin 3 → Nat) a + S1x2048x256.size a ≤ S4x2048x256.size a
  inb_S4x256x768_S1x256x768_3_0_0 : ∀ a, (![3, 0, 0] : Fin 3 → Nat) a + S1x256x768.size a ≤ S4x256x768.size a
  inb_S5x768_S1x768_4_0 : ∀ a, (![4, 0] : Fin 2 → Nat) a + S1x768.size a ≤ S5x768.size a
  scatter_S128x256_S1_S40x256_01_n_0_0_wf : ScatterDims.WF S128x256 S1 S40x256 [0, 1] [] [0] 0
  dot_S2048x256_S256x768_S2048x768_1_0_0_1_n_n_wf : DotDims.WF S2048x256 S256x768 S2048x768 [1] [0] [0] [1] [] []
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x256.size a ≤ S4x32768x256.size a
  hwx0_1 : ∀ i : grid0.Coords, EltTy.bits .f32 = 32 ∨ (Rect.block (s := S4x32768x256) S4x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x32768.size a
  hwx0_2 : ∀ i : grid0.Coords, EltTy.bits .i32 = 32 ∨ (Rect.block (s := S4x32768) S4x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x32768.size a
  hwx0_3 : ∀ i : grid0.Coords, EltTy.bits .i32 = 32 ∨ (Rect.block (s := S4x32768) S4x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x768.size a ≤ S4x256x768.size a
  hwx0_5 : ∀ i : grid0.Coords, EltTy.bits .bf16 = 32 ∨ (Rect.block (s := S4x256x768) S4x256x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x768.size a ≤ S5x768.size a
  hwx0_6 : ∀ i : grid0.Coords, EltTy.bits .f32 = 32 ∨ (Rect.block (s := S5x768) S5x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S32768x256.size a
  hwx0_8 : ∀ i : grid0.Coords, EltTy.bits .f32 = 32 ∨ (Rect.block (s := S32768x256) S2048x256.size (cc0_transform_8 i) (hinb0_8 i)).WholeWords (EltTy.packing .f32)

variable [Facts₀]

def scatter_S128x256_S1_S40x256_01_n_0_0 : ScatterDims S128x256 S1 S40x256 where
  updateWindowDims := [0, 1]
  insertedWindowDims := []
  scatterDimsToOperandDims := [0]
  indexVectorDim := 0
  wf := scatter_S128x256_S1_S40x256_01_n_0_0_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x256 : Shape := ⟨2, ![32768, 256]⟩
abbrev S4x32768x256 : Shape := ⟨3, ![4, 32768, 256]⟩
abbrev S32768x4 : Shape := ⟨2, ![32768, 4]⟩
abbrev S256x768 : Shape := ⟨2, ![256, 768]⟩
abbrev S4x256x768 : Shape := ⟨3, ![4, 256, 768]⟩
abbrev S5x768 : Shape := ⟨2, ![5, 768]⟩
abbrev S40x256 : Shape := ⟨2, ![40, 256]⟩
abbrev S32768x768 : Shape := ⟨2, ![32768, 768]⟩
abbrev S1x768 : Shape := ⟨2, ![1, 768]⟩
abbrev S768 : Shape := ⟨1, ![768]⟩
abbrev S4x32768 : Shape := ⟨2, ![4, 32768]⟩
abbrev S4x32768x1 : Shape := ⟨3, ![4, 32768, 1]⟩
abbrev S_ : Shape := ⟨0, ![]⟩
abbrev S32768x4x1 : Shape := ⟨3, ![32768, 4, 1]⟩
abbrev S32768x4x256 : Shape := ⟨3, ![32768, 4, 256]⟩
abbrev S4x32768x768 : Shape := ⟨3, ![4, 32768, 768]⟩
abbrev S4x768 : Shape := ⟨2, ![4, 768]⟩
abbrev S4x1x768 : Shape := ⟨3, ![4, 1, 768]⟩
abbrev S1x32768x256 : Shape := ⟨3, ![1, 32768, 256]⟩

abbrev nBuf : Space → Nat
  | .hbm => 104
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S4x32768x256, .f32⟩
  | .hbm, ⟨2, _⟩ => ⟨S32768x4, .i32⟩
  | .hbm, ⟨3, _⟩ => ⟨S32768x4, .i1⟩
  | .hbm, ⟨4, _⟩ => ⟨S256x768, .f32⟩
  | .hbm, ⟨5, _⟩ => ⟨S4x256x768, .f32⟩
  | .hbm, ⟨6, _⟩ => ⟨S5x768, .f32⟩
  | .hbm, ⟨7, _⟩ => ⟨S40x256, .f32⟩
  | .hbm, ⟨8, _⟩ => ⟨S32768x768, .f32⟩
  | .hbm, ⟨9, _⟩ => ⟨S1x768, .f32⟩
  | .hbm, ⟨10, _⟩ => ⟨S768, .f32⟩
  | .hbm, ⟨11, _⟩ => ⟨S1x768, .f32⟩
  | .hbm, ⟨12, _⟩ => ⟨S32768x768, .f32⟩
  | .hbm, ⟨13, _⟩ => ⟨S32768x768, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S4x32768, .i1⟩
  | .hbm, ⟨18, _⟩ => ⟨S4x32768x1, .i1⟩
  | .hbm, ⟨19, _⟩ => ⟨S_, .i32⟩
  | .hbm, ⟨20, _⟩ => ⟨S32768x4, .i32⟩
  | .hbm, ⟨21, _⟩ => ⟨S32768x4, .i1⟩
  | .hbm, ⟨22, _⟩ => ⟨S_, .i32⟩
  | .hbm, ⟨23, _⟩ => ⟨S32768x4, .i32⟩
  | .hbm, ⟨24, _⟩ => ⟨S32768x4, .i32⟩
  | .hbm, ⟨25, _⟩ => ⟨S32768x4, .i32⟩
  | .hbm, ⟨26, _⟩ => ⟨S32768x4x1, .i32⟩
  | .hbm, ⟨27, _⟩ => ⟨S32768x4x256, .f32⟩
  | .hbm, ⟨28, _⟩ => ⟨S4x32768x256, .f32⟩
  | .hbm, ⟨29, _⟩ => ⟨S_, .f32⟩
  | .hbm, ⟨30, _⟩ => ⟨S_, .f32⟩
  | .hbm, ⟨31, _⟩ => ⟨S4x32768x256, .i1⟩
  | .hbm, ⟨32, _⟩ => ⟨S4x32768x256, .f32⟩
  | .hbm, ⟨33, _⟩ => ⟨S4x32768x256, .f32⟩
  | .hbm, ⟨34, _⟩ => ⟨S4x32768x256, .f32⟩
  | .hbm, ⟨35, _⟩ => ⟨S4x32768x768, .f32⟩
  | .hbm, ⟨36, _⟩ => ⟨S4x768, .f32⟩
  | .hbm, ⟨37, _⟩ => ⟨S4x1x768, .f32⟩
  | .hbm, ⟨38, _⟩ => ⟨S4x32768x768, .f32⟩
  | .hbm, ⟨39, _⟩ => ⟨S4x32768x768, .f32⟩
  | .hbm, ⟨40, _⟩ => ⟨S4x32768x256, .f32⟩
  | .hbm, ⟨41, _⟩ => ⟨S4x32768x256, .f32⟩
  | .hbm, ⟨42, _⟩ => ⟨S4x32768x256, .f32⟩
  | .hbm, ⟨43, _⟩ => ⟨S1x32768x256, .f32⟩
  | .hbm, ⟨44, _⟩ => ⟨S4x32768x256, .f32⟩
  | .hbm, ⟨45, _⟩ => ⟨S4x32768x256, .f32⟩
  | .hbm, ⟨46, _⟩ => ⟨S4x32768x256, .f32⟩
  | .hbm, ⟨47, _⟩ => ⟨S4x32768x256, .f32⟩
  | .hbm, ⟨48, _⟩ => ⟨S_, .f32⟩
  | .hbm, ⟨49, _⟩ => ⟨S4x32768x256, .f32⟩
  | .hbm, ⟨50, _⟩ => ⟨S4x32768x256, .f32⟩
  | .hbm, ⟨51, _⟩ => ⟨S_, .f32⟩
  | .hbm, ⟨52, _⟩ => ⟨S4x32768x256, .f32⟩
  | .hbm, ⟨53, _⟩ => ⟨S4x32768x256, .f32⟩
  | .hbm, ⟨54, _⟩ => ⟨S1x32768x256, .f32⟩
  | .hbm, ⟨55, _⟩ => ⟨S4x32768x256, .f32⟩
  | .hbm, ⟨56, _⟩ => ⟨S4x32768x256, .f32⟩
  | .hbm, ⟨57, _⟩ => ⟨S4x32768x256, .f32⟩
  | .hbm, ⟨58, _⟩ => ⟨S4x32768x256, .f32⟩
  | .hbm, ⟨59, _⟩ => ⟨S_, .f32⟩
  | .hbm, ⟨60, _⟩ => ⟨S4x32768x256, .f32⟩
  | .hbm, ⟨61, _⟩ => ⟨S4x32768x256, .f32⟩
  | .hbm, ⟨62, _⟩ => ⟨S_, .f32⟩
  | .hbm, ⟨63, _⟩ => ⟨S4x32768x256, .f32⟩
  | .hbm, ⟨64, _⟩ => ⟨S4x32768x256, .f32⟩
  | .hbm, ⟨65, _⟩ => ⟨S4x32768x256, .f32⟩
  | .hbm, ⟨66, _⟩ => ⟨S_, .f32⟩
  | .hbm, ⟨67, _⟩ => ⟨S_, .f32⟩
  | .hbm, ⟨68, _⟩ => ⟨S4x32768x256, .i1⟩
  | .hbm, ⟨69, _⟩ => ⟨S4x32768x256, .f32⟩
  | .hbm, ⟨70, _⟩ => ⟨S4x32768x256, .f32⟩
  | .hbm, ⟨71, _⟩ => ⟨S_, .f32⟩
  | .hbm, ⟨72, _⟩ => ⟨S32768x256, .f32⟩
  | .hbm, ⟨73, _⟩ => ⟨S4x32768x256, .f32⟩
  | .hbm, ⟨74, _⟩ => ⟨S_, .f32⟩
  | .hbm, ⟨75, _⟩ => ⟨S_, .f32⟩
  | .hbm, ⟨76, _⟩ => ⟨S4x32768x256, .i1⟩
  | .hbm, ⟨77, _⟩ => ⟨S4x32768x256, .f32⟩
  | .hbm, ⟨78, _⟩ => ⟨S4x32768x256, .f32⟩
  | .hbm, ⟨79, _⟩ => ⟨S_, .f32⟩
  | .hbm, ⟨80, _⟩ => ⟨S32768x256, .f32⟩
  | .hbm, ⟨81, _⟩ => ⟨S_, .f32⟩
  | .hbm, ⟨82, _⟩ => ⟨S_, .f32⟩
  | .hbm, ⟨83, _⟩ => ⟨S4x32768x256, .i1⟩
  | .hbm, ⟨84, _⟩ => ⟨S4x32768x256, .f32⟩
  | .hbm, ⟨85, _⟩ => ⟨S4x32768x256, .f32⟩
  | .hbm, ⟨86, _⟩ => ⟨S_, .f32⟩
  | .hbm, ⟨87, _⟩ => ⟨S32768x256, .f32⟩
  | .hbm, ⟨88, _⟩ => ⟨S_, .f32⟩
  | .hbm, ⟨89, _⟩ => ⟨S32768x256, .f32⟩
  | .hbm, ⟨90, _⟩ => ⟨S32768x256, .f32⟩
  | .hbm, ⟨91, _⟩ => ⟨S32768x256, .f32⟩
  | .hbm, ⟨92, _⟩ => ⟨S32768x256, .f32⟩
  | .hbm, ⟨93, _⟩ => ⟨S_, .f32⟩
  | .hbm, ⟨94, _⟩ => ⟨S32768x256, .f32⟩
  | .hbm, ⟨95, _⟩ => ⟨S32768x256, .f32⟩
  | .hbm, ⟨96, _⟩ => ⟨S_, .f32⟩
  | .hbm, ⟨97, _⟩ => ⟨S32768x256, .f32⟩
  | .hbm, ⟨98, _⟩ => ⟨S32768x256, .f32⟩
  | .hbm, ⟨99, _⟩ => ⟨S32768x256, .f32⟩
  | .hbm, ⟨100, _⟩ => ⟨S_, .f32⟩
  | .hbm, ⟨101, _⟩ => ⟨S32768x256, .f32⟩
  | .hbm, ⟨102, _⟩ => ⟨S32768x256, .f32⟩
  | .hbm, ⟨103, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_cst_9 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  slices_S5x768_S1x768_0_0 : S5x768.Slices ![0, 0] S1x768
  shapeCasts_S1x768_S768 : S1x768.ShapeCasts S768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  transposes_S32768x4_S4x32768_1_0 : S32768x4.Transposes [1, 0] S4x32768
  bcast_S4x32768_S4x32768x1_0_1 : S4x32768.BroadcastsInDim S4x32768x1 (![0, 1] : Fin 2 → Fin S4x32768x1.rank)
  bcast_S_S32768x4 : S_.BroadcastsInDim S32768x4 (![] : Fin 0 → Fin S32768x4.rank)
  bcast_S32768x4_S32768x4x1_0_1 : S32768x4.BroadcastsInDim S32768x4x1 (![0, 1] : Fin 2 → Fin S32768x4x1.rank)
  transposes_S32768x4x256_S4x32768x256_1_0_2 : S32768x4x256.Transposes [1, 0, 2] S4x32768x256
  bcast_S4x32768x1_S4x32768x256_0_1_2 : S4x32768x1.BroadcastsInDim S4x32768x256 (![0, 1, 2] : Fin 3 → Fin S4x32768x256.rank)
  bcast_S_S4x32768x256 : S_.BroadcastsInDim S4x32768x256 (![] : Fin 0 → Fin S4x32768x256.rank)
  slices_S5x768_S4x768_1_0 : S5x768.Slices ![1, 0] S4x768
  bcast_S4x768_S4x1x768_0_2 : S4x768.BroadcastsInDim S4x1x768 (![0, 2] : Fin 2 → Fin S4x1x768.rank)
  bcast_S4x1x768_S4x32768x768_0_1_2 : S4x1x768.BroadcastsInDim S4x32768x768 (![0, 1, 2] : Fin 3 → Fin S4x32768x768.rank)
  slices_S4x32768x768_S4x32768x256_0_0_0 : S4x32768x768.Slices ![0, 0, 0] S4x32768x256
  slices_S4x32768x768_S4x32768x256_0_0_256 : S4x32768x768.Slices ![0, 0, 256] S4x32768x256
  slices_S4x32768x768_S4x32768x256_0_0_512 : S4x32768x768.Slices ![0, 0, 512] S4x32768x256
  bcast_S32768x256_S1x32768x256_1_2 : S32768x256.BroadcastsInDim S1x32768x256 (![1, 2] : Fin 2 → Fin S1x32768x256.rank)
  bcast_S1x32768x256_S4x32768x256_0_1_2 : S1x32768x256.BroadcastsInDim S4x32768x256 (![0, 1, 2] : Fin 3 → Fin S4x32768x256.rank)
  reducesTo_S4x32768x256_S32768x256_d0 : S4x32768x256.ReducesTo [0] S32768x256
  h_S_ : 0 < S_.numel
  bcast_S_S32768x256 : S_.BroadcastsInDim S32768x256 (![] : Fin 0 → Fin S32768x256.rank)
  dot_S32768x256_S256x768_S32768x768_1_0_0_1_n_n_wf : DotDims.WF S32768x256 S256x768 S32768x768 [1] [0] [0] [1] [] []
  gather_S40x256_S32768x4x1_S32768x4x256_2_0_n_n_0_2_1256_wf : GatherDims.WF S40x256 S32768x4x1 S32768x4x256 [2] [0] [] [0] [] 2 ![1, 256]
  dot_S4x32768x256_S4x256x768_S4x32768x768_2_1_1_2_0_0_wf : DotDims.WF S4x32768x256 S4x256x768 S4x32768x768 [2] [1] [1] [2] [0] [0]

variable [Facts₀]

def dot_S32768x256_S256x768_S32768x768_1_0_0_1_n_n : DotDims S32768x256 S256x768 S32768x768 where
  lhsContracting := [1]
  rhsContracting := [0]
  lhsNonContracting := [0]
  rhsNonContracting := [1]
  lhsBatch := []
  rhsBatch := []
  wf := dot_S32768x256_S256x768_S32768x768_1_0_0_1_n_n_wf
def gather_S40x256_S32768x4x1_S32768x4x256_2_0_n_n_0_2_1256 : GatherDims S40x256 S32768x4x1 S32768x4x256 where
  offsetDims := [2]
  collapsedSliceDims := [0]
  operandBatchingDims := []
  startIndicesBatchingDims := []
  startIndexMap := [0]
  indexVectorDim := 2
  sliceSizes := ![1, 256]
  wf := gather_S40x256_S32768x4x1_S32768x4x256_2_0_n_n_0_2_1256_wf
def dot_S4x32768x256_S4x256x768_S4x32768x768_2_1_1_2_0_0 : DotDims S4x32768x256 S4x256x768 S4x32768x768 where
  lhsContracting := [2]
  rhsContracting := [1]
  lhsNonContracting := [1]
  rhsNonContracting := [2]
  lhsBatch := [0]
  rhsBatch := [0]
  wf := dot_S4x32768x256_S4x256x768_S4x32768x768_2_1_1_2_0_0_wf

class Facts : Prop extends Facts₀ where

variable [Facts]
-- ==== Proof.Spec.lean ====
/-
  The arithmetic of one output element of the gated graph recurrent cell, stated once on the extended reals.

  For a fixed batch row and output column q the cell has, for each of the four edge types k, a mask bit, an embedding
  row e_k, a state row h_k, a recurrent weight matrix R_k and a bias row b_k. With s_k = h_k * e_k (entrywise) and
  rc_k = s_k R_k + b_k (a row of 768 entries in three thirds: update, reset, candidate), the update and reset gates are
  z_k = sigma (x_z + rc_k[q]) and r_k = sigma (x_r + rc_k[256 + q]), where x = x_in W + b_0 is the input projection.
  Three masked sums over k are formed, of r_k * rc_k[512 + q], of z_k * s_k[q] and of z_k, and the result is
  (1 - accZ / 4) * tanh (x_h + accH / 4) + accZH / 4.

  Two spellings of this are given. One writes the logistic function through tanh, multiplies by the mask as a number
  0 or 1, adds the four terms one after the other onto zero, and looks a table row up as a sum against an indicator
  row. The other writes the logistic function through exp, selects by the mask bit (also replacing the embedding row
  of a masked-out edge by ones), and sums over k. The theorems below show the two spellings agree: the logistic
  identity holds on every extended real (at the infinities both sides are 1 and 0), a product with the number 0 is 0
  whatever the other factor is, and addition of extended reals is associative.
-/
import Idealize.ShloMosaic.PureOps.Ideal
import Idealize.ShloMosaic.PureOps.Ideal.Laws
import Idealize.ShloMosaic.Lib.ValueIdx
import Idealize.ShloMosaic.Lib.WordArith
import Idealize.ShloMosaic.Lib.StableHlo.Predicate

noncomputable section

open scoped BigOperators

namespace Cert.GruSpec

open Idealize.ShloMosaic

/-- A single-precision bit pattern read as an extended real. -/
abbrev lit (b : BitVec 32) : EReal := Ideal.ofBits .f32 b

/-! ## Columns of the three thirds of a 768-wide row -/

/-- Column q of the first third. -/
abbrev cz (q : Fin 256) : Fin 768 := ⟨q.val, by omega⟩
/-- Column q of the second third. -/
abbrev cr (q : Fin 256) : Fin 768 := ⟨256 + q.val, by omega⟩
/-- Column q of the last third. -/
abbrev ch (q : Fin 256) : Fin 768 := ⟨512 + q.val, by omega⟩

/-! ## The two projections -/

/-- A row times a 256 x 768 matrix, plus a bias row. -/
def recur (s : Fin 256 → EReal) (Rk : Fin 256 → Fin 768 → EReal) (bk : Fin 768 → EReal) (v : Fin 768) : EReal :=
  (∑ u : Fin 256, s u * Rk u v) + bk v

/-! ## The logistic function, twice -/

/-- The logistic function written through tanh: 1/2 * tanh (1/2 * t) + 1/2. -/
def gateT (t : EReal) : EReal :=
  lit 0x3F000000#32 * Ideal.tanh (lit 0x3F000000#32 * t) + lit 0x3F000000#32

/-- The logistic function written through exp: 1 / (1 + exp (-t)). -/
def gateE (t : EReal) : EReal :=
  Ideal.div (lit 0x3F800000#32) (lit 0x3F800000#32 + Ideal.exp (-t))

/-! ## One edge type's three terms, mask as a factor -/

section Terms
variable (m : EReal) (em st : Fin 256 → EReal) (Rk : Fin 256 → Fin 768 → EReal) (bk : Fin 768 → EReal)

/-- The masked candidate term: m * (r * rc[512 + q]) with r the reset gate. -/
def termH (xr : EReal) (q : Fin 256) : EReal :=
  m * (gateT (xr + recur (fun u => st u * em u) Rk bk (cr q)) * recur (fun u => st u * em u) Rk bk (ch q))

/-- The masked state term: m * (z * s[q]) with z the update gate. -/
def termZH (xz : EReal) (q : Fin 256) : EReal :=
  m * (gateT (xz + recur (fun u => st u * em u) Rk bk (cz q)) * (st q * em q))

/-- The masked update gate: m * z. -/
def termZ (xz : EReal) (q : Fin 256) : EReal :=
  m * gateT (xz + recur (fun u => st u * em u) Rk bk (cz q))

end Terms

/-! ## The same three terms, mask as a selector -/

section TermsSel
variable (mb : BitVec 1) (em st : Fin 256 → EReal) (Rk : Fin 256 → Fin 768 → EReal) (bk : Fin 768 → EReal)

/-- The embedding row with a masked-out edge's row replaced by ones. -/
def emSel (u : Fin 256) : EReal := Scalar.select mb (em u) (lit 0x3F800000#32)

def selH (xr : EReal) (q : Fin 256) : EReal :=
  Scalar.select mb
    (gateE (xr + recur (fun u => st u * emSel mb em u) Rk bk (cr q)) * recur (fun u => st u * emSel mb em u) Rk bk (ch q))
    (lit 0x00000000#32)

def selZH (xz : EReal) (q : Fin 256) : EReal :=
  Scalar.select mb
    (gateE (xz + recur (fun u => st u * emSel mb em u) Rk bk (cz q)) * (st q * emSel mb em q))
    (lit 0x00000000#32)

def selZ (xz : EReal) (q : Fin 256) : EReal :=
  Scalar.select mb (gateE (xz + recur (fun u => st u * emSel mb em u) Rk bk (cz q))) (lit 0x00000000#32)

end TermsSel

/-! ## The closing expression -/

/-- (1 - accZ / 4) * tanh (x_h + accH / 4) + accZH / 4. -/
def finish (xh aH aZH aZ : EReal) : EReal :=
  (lit 0x3F800000#32 - aZ * lit 0x3E800000#32) * Ideal.tanh (xh + aH * lit 0x3E800000#32) + aZH * lit 0x3E800000#32

/-! ## The mask bit as a number, and the indicator row of a table lookup -/

/-- A bit widened to a word and read as a signed number: 0 or 1. -/
def mfloat (b : BitVec 1) : EReal := (((b.setWidth 32).toInt : ℝ) : EReal)

/-- The row index clipped into [0, 39], as words: min 39 (max 0 e). -/
def clipIdx (e : BitVec 32) : BitVec 32 := IntOp.minsi 39#32 (IntOp.maxsi 0#32 e)

/-- Entry v of the indicator row of the clipped index. -/
def ohf (e : BitVec 32) (v : Fin 128) : EReal :=
  mfloat (IntOp.cmpi .eq (BitVec.ofNat 32 v.val) (clipIdx e))

/-- The table row an index word selects once it is read signed and clamped into [0, 39]. -/
abbrev rowOf (e : BitVec 32) : Fin 40 := ⟨min e.toInt.toNat 39, by omega⟩

/-- A table row looked up as the indicator row times the table. -/
def embK (tbl : Fin 128 → Fin 256 → EReal) (e : BitVec 32) (u : Fin 256) : EReal :=
  ∑ v : Fin 128, ohf e v * tbl v u

/-! ## The whole element, both spellings -/

section Cell
variable (em st : Fin 4 → Fin 256 → EReal) (R : Fin 4 → Fin 256 → Fin 768 → EReal) (bs : Fin 5 → Fin 768 → EReal)
  (xin : Fin 256 → EReal) (W : Fin 256 → Fin 768 → EReal)

/-- The element with the mask as a factor and the four terms added one after the other. -/
def cellK (mf : Fin 4 → EReal) (q : Fin 256) : EReal :=
  finish (recur xin W (bs 0) (ch q))
    ((((lit 0x00000000#32
      + termH (mf 0) (em 0) (st 0) (R 0) (bs 1) (recur xin W (bs 0) (cr q)) q)
      + termH (mf 1) (em 1) (st 1) (R 1) (bs 2) (recur xin W (bs 0) (cr q)) q)
      + termH (mf 2) (em 2) (st 2) (R 2) (bs 3) (recur xin W (bs 0) (cr q)) q)
      + termH (mf 3) (em 3) (st 3) (R 3) (bs 4) (recur xin W (bs 0) (cr q)) q)
    ((((lit 0x00000000#32
      + termZH (mf 0) (em 0) (st 0) (R 0) (bs 1) (recur xin W (bs 0) (cz q)) q)
      + termZH (mf 1) (em 1) (st 1) (R 1) (bs 2) (recur xin W (bs 0) (cz q)) q)
      + termZH (mf 2) (em 2) (st 2) (R 2) (bs 3) (recur xin W (bs 0) (cz q)) q)
      + termZH (mf 3) (em 3) (st 3) (R 3) (bs 4) (recur xin W (bs 0) (cz q)) q)
    ((((lit 0x00000000#32
      + termZ (mf 0) (em 0) (st 0) (R 0) (bs 1) (recur xin W (bs 0) (cz q)) q)
      + termZ (mf 1) (em 1) (st 1) (R 1) (bs 2) (recur xin W (bs 0) (cz q)) q)
      + termZ (mf 2) (em 2) (st 2) (R 2) (bs 3) (recur xin W (bs 0) (cz q)) q)
      + termZ (mf 3) (em 3) (st 3) (R 3) (bs 4) (recur xin W (bs 0) (cz q)) q)

/-- Bias row k + 1. -/
abbrev brow (k : Fin 4) : Fin 5 := ⟨k.val + 1, by omega⟩

/-- The element with the mask as a selector and the four terms summed. -/
def cellR (mb : Fin 4 → BitVec 1) (q : Fin 256) : EReal :=
  finish (recur xin W (bs 0) (ch q))
    (lit 0x00000000#32 + ∑ k : Fin 4, selH (mb k) (em k) (st k) (R k) (bs (brow k)) (recur xin W (bs 0) (cr q)) q)
    (lit 0x00000000#32 + ∑ k : Fin 4, selZH (mb k) (em k) (st k) (R k) (bs (brow k)) (recur xin W (bs 0) (cz q)) q)
    (lit 0x00000000#32 + ∑ k : Fin 4, selZ (mb k) (em k) (st k) (R k) (bs (brow k)) (recur xin W (bs 0) (cz q)) q)

end Cell

end Cert.GruSpec

end
-- ==== Proof.KStmt.lean ====
/-
  What the kernel computes, stated against the specification: one element of an output block as a function of the
  input blocks of its grid point, and one element of the output array as the same function of the arrays the region
  finds. Row p of a block (or row b of an array) supplies the input row, the four state rows, the four index words and
  the four mask words; the weight matrices, the bias rows and the padded embedding table are read whole.
-/
import proofs.«415521_j60309930770883_3_alg».proof.Proof.Gen.KernelIdeal.Frame
import proofs.«415521_j60309930770883_3_alg».proof.Proof.Spec

noncomputable section

namespace Cert.KernelIdeal.KStmt

open Cert.KernelIdeal Cert.KernelIdeal.Gen Idealize.ShloMosaic Idealize.ShloMosaic.ValueIdx Cert.GruSpec

/-- Element (p, q) of an output block from the eight input blocks: the mask words enter as "word is not zero" read as a
    number, the index words through the indicator-row lookup in the padded table. -/
def blockCell (x0 : Vec Ideal S2048x256 .f32) (x1 : Vec Ideal S4x2048x256 .f32) (x2 : Vec Ideal S4x2048 .i32)
    (x3 : Vec Ideal S4x2048 .i32) (x4 : Vec Ideal S256x768 .bf16) (x5 : Vec Ideal S4x256x768 .bf16)
    (x6 : Vec Ideal S5x768 .f32) (x7 : Vec Ideal S128x256 .bf16) (p : Fin 2048) (q : Fin 256) : EReal :=
  cellK (fun k u => embK (fun e u' => x7 (ix2 e u')) (x2 (ix2 k p)) u)
    (fun k u => x1 (ix3 k p u)) (fun k u v => x5 (ix3 k u v)) (fun j v => x6 (ix2 j v))
    (fun d => x0 (ix2 p d)) (fun d v => x4 (ix2 d v))
    (fun k => mfloat (IntOp.cmpi .ne (x3 (ix2 k p)) 0#32)) q

/-- The statement about the kernel body: the block it leaves, element by element, is `blockCell` of its input blocks. -/
def CellStmt : Prop :=
  ∀ (x0 : Vec Ideal S2048x256 .f32) (x1 : Vec Ideal S4x2048x256 .f32) (x2 : Vec Ideal S4x2048 .i32)
    (x3 : Vec Ideal S4x2048 .i32) (x4 : Vec Ideal S256x768 .bf16) (x5 : Vec Ideal S4x256x768 .bf16)
    (x6 : Vec Ideal S5x768 .f32) (x7 : Vec Ideal S128x256 .bf16) (p : Fin 2048) (q : Fin 256),
    out0_8 (F := Ideal) x0 x1 x2 x3 x4 x5 x6 x7 (ix2 p q) = blockCell x0 x1 x2 x3 x4 x5 x6 x7 p q

/-- Element (b, q) of the output array from the eight arrays the region stages: the same function, row b of the arrays
    in place of row p of the blocks. -/
def arrayCell (A0 : S32768x256.Idx → EReal) (A1 : S4x32768x256.Idx → EReal) (A2 A3 : S4x32768.Idx → BitVec 32)
    (A4 : S256x768.Idx → EReal) (A5 : S4x256x768.Idx → EReal) (A6 : S5x768.Idx → EReal) (A7 : S128x256.Idx → EReal)
    (b : Fin 32768) (q : Fin 256) : EReal :=
  cellK (fun k u => embK (fun e u' => A7 (ix2 e u')) (A2 (ix2 k b)) u)
    (fun k u => A1 (ix3 k b u)) (fun k u v => A5 (ix3 k u v)) (fun j v => A6 (ix2 j v))
    (fun d => A0 (ix2 b d)) (fun d v => A4 (ix2 d v))
    (fun k => mfloat (IntOp.cmpi .ne (A3 (ix2 k b)) 0#32)) q

end Cert.KernelIdeal.KStmt

end
-- ==== Proof.KOps.lean ====
/-
  The kernel body's vector operations read at one index, at the exact (extended-real) reading of floats: the two
  matrix products as sums over the contracted axis, a third of a 768-wide row, a bias row spread over all rows, a
  leading unit axis dropped, a column spread over a row's width, and the one-row loads. Each is stated over variables of
  the literal vector types and explicit coordinates, so that a payload's value at (p, q) is a chain of rewrites.
-/
import proofs.«415521_j60309930770883_3_alg».proof.Proof.Gen.KernelIdeal.Frame
import proofs.«415521_j60309930770883_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KOps

open Cert.KernelIdeal Cert.KernelIdeal.Gen Idealize.ShloMosaic Idealize.ShloMosaic.ValueIdx Cert.GruSpec

/-! ### The contraction record of a [2048, 256] by [256, 768] product -/

theorem lhsXW_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
theorem lhsXW_1 (i : S2048x768.Idx) (q : dot_S2048x256_S256x768_S2048x768_1_0_0_1_n_n.contr.Idx) :
    (dot_S2048x256_S256x768_S2048x768_1_0_0_1_n_n.lhsIdx i q 1).val = (q ⟨0, by decide⟩).val :=
  dot_S2048x256_S256x768_S2048x768_1_0_0_1_n_n.lhsIdx_val_of_single rfl i q
theorem rhsXW_0 (i : S2048x768.Idx) (q : dot_S2048x256_S256x768_S2048x768_1_0_0_1_n_n.contr.Idx) :
    (dot_S2048x256_S256x768_S2048x768_1_0_0_1_n_n.rhsIdx i q 0).val = (q ⟨0, by decide⟩).val :=
  dot_S2048x256_S256x768_S2048x768_1_0_0_1_n_n.rhsIdx_val_of_single rfl i q
theorem rhsXW_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl

/-- Entry (p, v) of the product into a zero accumulator is the sum over the contracted axis of the row's entries
    times the column's. -/
theorem matmulXW {φ₁ φ₂ : FTy} (l : FVec Ideal S2048x256 φ₁) (r : FVec Ideal S256x768 φ₂) (p : Fin 2048) (v : Fin 768) :
    matmul dot_S2048x256_S256x768_S2048x768_1_0_0_1_n_n none l r (constant S2048x768 .f32 0x00000000#32) (ix2 p v)
      = ∑ d : Fin 256, l (ix2 p d) * r (ix2 d v) := by
  simp only [matmul]
  rw [Ideal.matmul_constant_zero_apply, ← Equiv.sum_comp (contrEquiv1 dot_S2048x256_S256x768_S2048x768_1_0_0_1_n_n 256 rfl rfl).symm]
  refine Finset.sum_congr rfl fun k _ => ?_
  have hk := contrEquiv1_symm_val dot_S2048x256_S256x768_S2048x768_1_0_0_1_n_n 256 rfl rfl k
  have el : dot_S2048x256_S256x768_S2048x768_1_0_0_1_n_n.lhsIdx (ix2 p v) ((contrEquiv1 dot_S2048x256_S256x768_S2048x768_1_0_0_1_n_n 256 rfl rfl).symm k) = ix2 p k := funext fun a => Fin.ext (by
    match a with
    | ⟨0, _⟩ => exact lhsXW_0 _ _
    | ⟨1, _⟩ => exact (lhsXW_1 _ _).trans hk)
  have er : dot_S2048x256_S256x768_S2048x768_1_0_0_1_n_n.rhsIdx (ix2 p v) ((contrEquiv1 dot_S2048x256_S256x768_S2048x768_1_0_0_1_n_n 256 rfl rfl).symm k) = ix2 k v := funext fun a => Fin.ext (by
    match a with
    | ⟨0, _⟩ => exact (rhsXW_0 _ _).trans hk
    | ⟨1, _⟩ => exact rhsXW_1 _ _)
  rw [el, er]

/-! ### The contraction record of a [2048, 128] by [128, 256] product -/

theorem lhsOH_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhsOH_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhsOH_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhsOH_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Entry (p, v) of the product into a zero accumulator is the sum over the contracted axis of the row's entries
    times the column's. -/
theorem matmulOH {φ₁ φ₂ : FTy} (l : FVec Ideal S2048x128 φ₁) (r : FVec Ideal S128x256 φ₂) (p : Fin 2048) (v : Fin 256) :
    matmul dot_S2048x128_S128x256_S2048x256_1_0_0_1_n_n none l r (constant S2048x256 .f32 0x00000000#32) (ix2 p v)
      = ∑ d : Fin 128, l (ix2 p d) * r (ix2 d v) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p v) ((contrEquiv1 dot_S2048x128_S128x256_S2048x256_1_0_0_1_n_n 128 rfl rfl).symm k) = ix2 p k := funext fun a => Fin.ext (by
    match a with
    | ⟨0, _⟩ => exact lhsOH_0 _ _
    | ⟨1, _⟩ => exact (lhsOH_1 _ _).trans hk)
  have er : dot_S2048x128_S128x256_S2048x256_1_0_0_1_n_n.rhsIdx (ix2 p v) ((contrEquiv1 dot_S2048x128_S128x256_S2048x256_1_0_0_1_n_n 128 rfl rfl).symm k) = ix2 k v := funext fun a => Fin.ext (by
    match a with
    | ⟨0, _⟩ => exact (rhsOH_0 _ _).trans hk
    | ⟨1, _⟩ => exact rhsOH_1 _ _)
  rw [el, er]

/-! ### A third of a 768-wide row -/

theorem third0 {α : Type} (x : S2048x768.Idx → α) (p : Fin 2048) (q : Fin 256) :
    extractStridedSlice S2048x256 ![0, 0] x slices_S2048x768_o0_0_S2048x256 (ix2 p q) = x (ix2 p (cz q)) :=
  slice2_axis1_apply 0 x _ p q (cz q) (by show q.val = 0 + q.val; omega)
theorem third1 {α : Type} (x : S2048x768.Idx → α) (p : Fin 2048) (q : Fin 256) :
    extractStridedSlice S2048x256 ![0, 256] x slices_S2048x768_o0_256_S2048x256 (ix2 p q) = x (ix2 p (cr q)) :=
  slice2_axis1_apply 256 x _ p q (cr q) rfl
theorem third2 {α : Type} (x : S2048x768.Idx → α) (p : Fin 2048) (q : Fin 256) :
    extractStridedSlice S2048x256 ![0, 512] x slices_S2048x768_o0_512_S2048x256 (ix2 p q) = x (ix2 p (ch q)) :=
  slice2_axis1_apply 512 x _ p q (ch q) rfl

/-! ### A bias row spread over all rows -/

theorem biasRow {α : Type} (b : S1x768.Idx → α) (p : Fin 2048) (v : Fin 768) :
    broadcastTo S2048x768 (shapeCast S1x768 (shapeCast S768 b shapeCasts_S1x768_S768) shapeCasts_S768_S1x768)
      broadcasts_S1x768_S2048x768 (ix2 p v) = b (ix2 (0 : Fin 1) v) := by
  rw [broadcastTo_1b_ab_apply, shapeCast_a_1a_apply, shapeCast_1a_a_apply]

/-! ### A leading unit axis dropped -/

theorem rowWords {α : Type} (w : S1x2048.Idx → α) (p : Fin 2048) :
    shapeCast S2048 w shapeCasts_S1x2048_S2048 (ix1 p) = w (ix2 (0 : Fin 1) p) :=
  shapeCast_1a_a_apply w _ p
theorem stateBlock {α : Type} (s : S1x2048x256.Idx → α) (p : Fin 2048) (u : Fin 256) :
    shapeCast S2048x256 s shapeCasts_S1x2048x256_S2048x256 (ix2 p u) = s (ix3 (0 : Fin 1) p u) :=
  shapeCast_1ab_ab_apply s _ p u
theorem weightBlock {α : Type} (r : S1x256x768.Idx → α) (d : Fin 256) (v : Fin 768) :
    shapeCast S256x768 r shapeCasts_S1x256x768_S256x768 (ix2 d v) = r (ix3 (0 : Fin 1) d v) :=
  shapeCast_1ab_ab_apply r _ d v

/-! ### A vector as a column, and a column spread over a row's width -/

theorem colCast {α : Type} (w : S2048.Idx → α) (p : Fin 2048) (z : Fin 1) :
    shapeCast S2048x1 w shapeCasts_S2048_S2048x1 (ix2 p z) = w (ix1 p) :=
  shapeCast_apply w _ _ _ (by
    rw [Shape.rowMajor_val_one, Shape.rowMajor_val_two]
    show p.val = p.val * 1 + z.val
    omega)
theorem colSpread256 {α : Type} (w : S2048x1.Idx → α) (p : Fin 2048) (q : Fin 256) :
    broadcastTo S2048x256 w broadcasts_S2048x1_S2048x256 (ix2 p q) = w (ix2 p (0 : Fin 1)) :=
  broadcastTo_apply w _ _ _ (fun ax => by
    match ax with
    | ⟨0, _⟩ => show p.val = if (2048 : Nat) = 1 then 0 else p.val; rw [if_neg (by decide)]
    | ⟨1, _⟩ => show 0 = if (1 : Nat) = 1 then 0 else q.val; rw [if_pos rfl])
theorem colSpread128 {α : Type} (w : S2048x1.Idx → α) (p : Fin 2048) (e : Fin 128) :
    broadcastTo S2048x128 w broadcasts_S2048x1_S2048x128 (ix2 p e) = w (ix2 p (0 : Fin 1)) :=
  broadcastTo_apply w _ _ _ (fun ax => by
    match ax with
    | ⟨0, _⟩ => show p.val = if (2048 : Nat) = 1 then 0 else p.val; rw [if_neg (by decide)]
    | ⟨1, _⟩ => show 0 = if (1 : Nat) = 1 then 0 else e.val; rw [if_pos rfl])

/-! ### Mask words as numbers, and the indicator row of an index word -/

/-- "Word is not zero", widened, read as a number and spread over the row: the number of the mask bit at row p. -/
theorem maskRow (w : IVec S2048 32) (p : Fin 2048) (q : Fin 256) :
    broadcastTo S2048x256
      (shapeCast S2048x1 (sitofp .f32 (extui 32 (shapeCast S2048x1 (cmpi .ne w (broadcast S2048 0#32)) shapeCasts_S2048_S2048x1) natLt_1_32) : FVec Ideal S2048x1 .f32)
        shapeCasts_S2048x1_S2048x1) broadcasts_S2048x1_S2048x256 (ix2 p q)
      = mfloat (IntOp.cmpi .ne (w (ix1 p)) 0#32) := by
  rw [colSpread256, shapeCast_self]
  show FloatOps.sitofp (F := Ideal) .f32 ((shapeCast S2048x1 (cmpi .ne w (broadcast S2048 0#32)) shapeCasts_S2048_S2048x1 (ix2 p (0 : Fin 1))).setWidth 32) = _
  rw [colCast]
  rfl

/-- The indicator row: "column number equals the clipped index word", widened and read as a number. -/
theorem onehotRow (w : IVec S2048 32) (p : Fin 2048) (e : Fin 128) :
    (truncf .bf16 (sitofp .f32 (extui 32 (cmpi .eq (iota .tc S2048x128 32 [1] iota_S2048x128_d1_w32)
        (broadcastTo S2048x128 (shapeCast S2048x1 (minsi (broadcast S2048 39#32) (maxsi (broadcast S2048 0#32) w)) shapeCasts_S2048_S2048x1)
          broadcasts_S2048x1_S2048x128)) natLt_1_32) : FVec Ideal S2048x128 .f32) bitsLt_bf16_f32 : FVec Ideal S2048x128 .bf16) (ix2 p e)
      = ohf (w (ix1 p)) e := by
  show FloatOps.sitofp (F := Ideal) .f32 ((IntOp.cmpi .eq (iota .tc S2048x128 32 [1] iota_S2048x128_d1_w32 (ix2 p e))
      (broadcastTo S2048x128 (shapeCast S2048x1 (minsi (broadcast S2048 39#32) (maxsi (broadcast S2048 0#32) w)) shapeCasts_S2048_S2048x1)
          broadcasts_S2048x1_S2048x128 (ix2 p e))).setWidth 32) = _
  rw [iota_single_apply, colSpread128, colCast]
  rfl

/-! ### One-row loads -/

theorem ldBias (x6 : Vec Ideal S5x768 .f32) (j : Fin 5) (inb) (v : Fin 768) :
    View.ld x6 (Rect.unit (s := S5x768) ![j.val, 0] S1x768.size inb) (ix2 (0 : Fin 1) v) = x6 (ix2 j v) := by
  show x6 _ = x6 _
  congr 1
  funext a
  match a with
  | ⟨0, _⟩ => exact Fin.ext (by show j.val + 1 * 0 = j.val; omega)
  | ⟨1, _⟩ => exact Fin.ext (by show 0 + 1 * v.val = v.val; omega)

theorem ldWords (x : Vec Ideal S4x2048 .i32) (k : Fin 4) (inb) (p : Fin 2048) :
    View.ld x (Rect.unit (s := S4x2048) ![k.val, 0] S1x2048.size inb) (ix2 (0 : Fin 1) p) = x (ix2 k p) := by
  show x _ = x _
  congr 1
  funext a
  match a with
  | ⟨0, _⟩ => exact Fin.ext (by show k.val + 1 * 0 = k.val; omega)
  | ⟨1, _⟩ => exact Fin.ext (by show 0 + 1 * p.val = p.val; omega)

theorem ldState (x : Vec Ideal S4x2048x256 .f32) (k : Fin 4) (inb) (p : Fin 2048) (u : Fin 256) :
    View.ld x (Rect.unit (s := S4x2048x256) ![k.val, 0, 0] S1x2048x256.size inb) (ix3 (0 : Fin 1) p u) = x (ix3 k p u) := by
  show x _ = x _
  congr 1
  funext a
  match a with
  | ⟨0, _⟩ => exact Fin.ext (by show k.val + 1 * 0 = k.val; omega)
  | ⟨1, _⟩ => exact Fin.ext (by show 0 + 1 * p.val = p.val; omega)
  | ⟨2, _⟩ => exact Fin.ext (by show 0 + 1 * u.val = u.val; omega)

theorem ldWeight (x : Vec Ideal S4x256x768 .bf16) (k : Fin 4) (inb) (d : Fin 256) (v : Fin 768) :
    View.ld x (Rect.unit (s := S4x256x768) ![k.val, 0, 0] S1x256x768.size inb) (ix3 (0 : Fin 1) d v) = x (ix3 k d v) := by
  show x _ = x _
  congr 1
  funext a
  match a with
  | ⟨0, _⟩ => exact Fin.ext (by show k.val + 1 * 0 = k.val; omega)
  | ⟨1, _⟩ => exact Fin.ext (by show 0 + 1 * d.val = d.val; omega)
  | ⟨2, _⟩ => exact Fin.ext (by show 0 + 1 * v.val = v.val; omega)

end Cert.KernelIdeal.KOps

end
-- ==== Proof.KIter0.lean ====
/-
  The input projection and the first edge type's contribution, read at one element of the block.
  The projection row x = (input row) W + (bias row 0) is cut in three thirds (update, reset, candidate). For edge type 0
  the mask words become numbers 0/1, the index words an indicator row, the state row times the looked-up table row is
  s, s R + (bias row 1) is the recurrent projection, and the three running sums start from zero.
-/
import proofs.«415521_j60309930770883_3_alg».proof.Proof.Gen.KernelIdeal.Frame
import proofs.«415521_j60309930770883_3_alg».proof.Proof.Spec
import proofs.«415521_j60309930770883_3_alg».proof.Proof.KOps

noncomputable section

open scoped BigOperators

namespace Cert.KernelIdeal.KIter0

open Cert.KernelIdeal Cert.KernelIdeal.Gen Cert.KernelIdeal.KOps Idealize.ShloMosaic Idealize.ShloMosaic.ValueIdx Cert.GruSpec

/-! ## The input projection -/

theorem proj_apply (v0 : Vec Ideal S2048x256 .f32) (v2 : Vec Ideal S256x768 .bf16) (v5 : Vec Ideal S1x768 .f32)
    (p : Fin 2048) (v : Fin 768) :
    k0_pay2 v0 v2 v5 (ix2 p v)
      = recur (fun d => v0 (ix2 p d)) (fun d v' => v2 (ix2 d v')) (fun v' => v5 (ix2 (0 : Fin 1) v')) v := by
  unfold k0_pay2
  rw [addf_apply, matmulXW, biasRow]
  simp only [shapeCast_self]
  rfl

theorem projZ (v0 : Vec Ideal S2048x256 .f32) (v2 : Vec Ideal S256x768 .bf16) (v5 : Vec Ideal S1x768 .f32)
    (p : Fin 2048) (q : Fin 256) :
    k0_pay3 v0 v2 v5 (ix2 p q)
      = recur (fun d => v0 (ix2 p d)) (fun d v' => v2 (ix2 d v')) (fun v' => v5 (ix2 (0 : Fin 1) v')) (cz q) := by
  unfold k0_pay3
  rw [third0, proj_apply]

theorem projR (v0 : Vec Ideal S2048x256 .f32) (v2 : Vec Ideal S256x768 .bf16) (v5 : Vec Ideal S1x768 .f32)
    (p : Fin 2048) (q : Fin 256) :
    k0_pay4 v0 v2 v5 (ix2 p q)
      = recur (fun d => v0 (ix2 p d)) (fun d v' => v2 (ix2 d v')) (fun v' => v5 (ix2 (0 : Fin 1) v')) (cr q) := by
  unfold k0_pay4
  rw [third1, proj_apply]

theorem projH (v0 : Vec Ideal S2048x256 .f32) (v2 : Vec Ideal S256x768 .bf16) (v5 : Vec Ideal S1x768 .f32)
    (p : Fin 2048) (q : Fin 256) :
    k0_pay5 v0 v2 v5 (ix2 p q)
      = recur (fun d => v0 (ix2 p d)) (fun d v' => v2 (ix2 d v')) (fun v' => v5 (ix2 (0 : Fin 1) v')) (ch q) := by
  unfold k0_pay5
  rw [third2, proj_apply]

/-! ## The table, the zeros, the mask numbers and the indicator row -/

theorem table_eq (v13 : Vec Ideal S128x256 .bf16) : k0_pay6 v13 = v13 := by
  unfold k0_pay6
  exact shapeCast_self _ _

theorem zeroH (i : S2048x256.Idx) : k0_pay7 (F := Ideal) i = lit 0x00000000#32 := rfl
theorem zeroZH (i : S2048x256.Idx) : k0_pay8 (F := Ideal) i = lit 0x00000000#32 := rfl
theorem zeroZ (i : S2048x256.Idx) : k0_pay9 (F := Ideal) i = lit 0x00000000#32 := rfl

theorem mask0 (v19 : Vec Ideal S1x2048 .i32) (p : Fin 2048) (q : Fin 256) :
    k0_pay10 (F := Ideal) v19 (ix2 p q) = mfloat (IntOp.cmpi .ne (v19 (ix2 (0 : Fin 1) p)) 0#32) := by
  unfold k0_pay10
  rw [maskRow, rowWords]

theorem onehot0 (v28 : Vec Ideal S1x2048 .i32) (p : Fin 2048) (e : Fin 128) :
    k0_pay11 (F := Ideal) v28 (ix2 p e) = ohf (v28 (ix2 (0 : Fin 1) p)) e := by
  unfold k0_pay11
  rw [onehotRow, rowWords]

/-! ## The state product and the recurrent projection -/

theorem state0 (v14 : FVec Ideal S128x256 .bf16) (v39 : FVec Ideal S2048x128 .bf16) (v41 : Vec Ideal S1x2048x256 .f32)
    (p : Fin 2048) (u : Fin 256) :
    k0_pay12 v14 v39 v41 (ix2 p u) = v41 (ix3 (0 : Fin 1) p u) * ∑ e : Fin 128, v39 (ix2 p e) * v14 (ix2 e u) := by
  unfold k0_pay12
  rw [mulf_apply, stateBlock, matmulOH]

theorem recur0 (v14 : FVec Ideal S128x256 .bf16) (v39 : FVec Ideal S2048x128 .bf16) (v41 : Vec Ideal S1x2048x256 .f32)
    (v45 : Vec Ideal S1x256x768 .bf16) (v48 : Vec Ideal S1x768 .f32) (p : Fin 2048) (v : Fin 768) :
    k0_pay13 v14 v39 v41 v45 v48 (ix2 p v)
      = recur (fun u => v41 (ix3 (0 : Fin 1) p u) * ∑ e : Fin 128, v39 (ix2 p e) * v14 (ix2 e u))
          (fun u v' => v45 (ix3 (0 : Fin 1) u v')) (fun v' => v48 (ix2 (0 : Fin 1) v')) v := by
  unfold k0_pay13
  rw [addf_apply, matmulXW, biasRow]
  unfold recur
  congr 1
  refine Finset.sum_congr rfl fun u _ => ?_
  rw [truncf_apply, state0, weightBlock]

/-! ## The three running sums after edge type 0 -/

theorem gate0 (v10 : FVec Ideal S2048x256 .f32) (v14 : FVec Ideal S128x256 .bf16) (v39 : FVec Ideal S2048x128 .bf16)
    (v41 : Vec Ideal S1x2048x256 .f32) (v45 : Vec Ideal S1x256x768 .bf16) (v48 : Vec Ideal S1x768 .f32)
    (p : Fin 2048) (q : Fin 256) :
    k0_pay14 v10 v14 v39 v41 v45 v48 (ix2 p q)
      = gateT (v10 (ix2 p q) + recur (fun u => v41 (ix3 (0 : Fin 1) p u) * ∑ e : Fin 128, v39 (ix2 p e) * v14 (ix2 e u))
          (fun u v' => v45 (ix3 (0 : Fin 1) u v')) (fun v' => v48 (ix2 (0 : Fin 1) v')) (cz q)) := by
  unfold k0_pay14
  show lit 0x3F000000#32 * Ideal.tanh (lit 0x3F000000#32 * (v10 (ix2 p q) + extractStridedSlice S2048x256 ![0, 0] (k0_pay13 v14 v39 v41 v45 v48) slices_S2048x768_o0_0_S2048x256 (ix2 p q))) + lit 0x3F000000#32 = _
  rw [third0, recur0]
  rfl

theorem accH0 (v11 : FVec Ideal S2048x256 .f32) (v14 : FVec Ideal S128x256 .bf16) (v16 v27 : FVec Ideal S2048x256 .f32)
    (v39 : FVec Ideal S2048x128 .bf16) (v41 : Vec Ideal S1x2048x256 .f32) (v45 : Vec Ideal S1x256x768 .bf16)
    (v48 : Vec Ideal S1x768 .f32) (p : Fin 2048) (q : Fin 256) :
    k0_pay15 v11 v14 v16 v27 v39 v41 v45 v48 (ix2 p q)
      = v16 (ix2 p q) + termH (v27 (ix2 p q)) (fun u => ∑ e : Fin 128, v39 (ix2 p e) * v14 (ix2 e u))
          (fun u => v41 (ix3 (0 : Fin 1) p u)) (fun u v' => v45 (ix3 (0 : Fin 1) u v')) (fun v' => v48 (ix2 (0 : Fin 1) v'))
          (v11 (ix2 p q)) q := by
  unfold k0_pay15
  show v16 (ix2 p q) + v27 (ix2 p q) * ((lit 0x3F000000#32 * Ideal.tanh (lit 0x3F000000#32 * (v11 (ix2 p q)
      + extractStridedSlice S2048x256 ![0, 256] (k0_pay13 v14 v39 v41 v45 v48) slices_S2048x768_o0_256_S2048x256 (ix2 p q))) + lit 0x3F000000#32)
      * extractStridedSlice S2048x256 ![0, 512] (k0_pay13 v14 v39 v41 v45 v48) slices_S2048x768_o0_512_S2048x256 (ix2 p q)) = _
  rw [third1, third2, recur0, recur0]
  rfl

theorem accZH0 (v10 : FVec Ideal S2048x256 .f32) (v14 : FVec Ideal S128x256 .bf16) (v17 v27 : FVec Ideal S2048x256 .f32)
    (v39 : FVec Ideal S2048x128 .bf16) (v41 : Vec Ideal S1x2048x256 .f32) (v45 : Vec Ideal S1x256x768 .bf16)
    (v48 : Vec Ideal S1x768 .f32) (p : Fin 2048) (q : Fin 256) :
    k0_pay16 v10 v14 v17 v27 v39 v41 v45 v48 (ix2 p q)
      = v17 (ix2 p q) + termZH (v27 (ix2 p q)) (fun u => ∑ e : Fin 128, v39 (ix2 p e) * v14 (ix2 e u))
          (fun u => v41 (ix3 (0 : Fin 1) p u)) (fun u v' => v45 (ix3 (0 : Fin 1) u v')) (fun v' => v48 (ix2 (0 : Fin 1) v'))
          (v10 (ix2 p q)) q := by
  unfold k0_pay16
  show v17 (ix2 p q) + v27 (ix2 p q) * (k0_pay14 v10 v14 v39 v41 v45 v48 (ix2 p q) * k0_pay12 v14 v39 v41 (ix2 p q)) = _
  rw [gate0, state0]
  rfl

theorem accZ0 (v10 : FVec Ideal S2048x256 .f32) (v14 : FVec Ideal S128x256 .bf16) (v18 v27 : FVec Ideal S2048x256 .f32)
    (v39 : FVec Ideal S2048x128 .bf16) (v41 : Vec Ideal S1x2048x256 .f32) (v45 : Vec Ideal S1x256x768 .bf16)
    (v48 : Vec Ideal S1x768 .f32) (p : Fin 2048) (q : Fin 256) :
    k0_pay17 v10 v14 v18 v27 v39 v41 v45 v48 (ix2 p q)
      = v18 (ix2 p q) + termZ (v27 (ix2 p q)) (fun u => ∑ e : Fin 128, v39 (ix2 p e) * v14 (ix2 e u))
          (fun u => v41 (ix3 (0 : Fin 1) p u)) (fun u v' => v45 (ix3 (0 : Fin 1) u v')) (fun v' => v48 (ix2 (0 : Fin 1) v'))
          (v10 (ix2 p q)) q := by
  unfold k0_pay17
  show v18 (ix2 p q) + v27 (ix2 p q) * k0_pay14 v10 v14 v39 v41 v45 v48 (ix2 p q) = _
  rw [gate0]
  rfl

end Cert.KernelIdeal.KIter0

end
-- ==== Proof.KIter1.lean ====
/-
  The second edge type's contribution, read at one element of the block.
  The mask words become numbers 0/1 spread over the row. The index words become an indicator row, whose product with
  the table is the looked-up table row; the state row times it, entrywise, is s, and s R + (bias row) is the recurrent
  projection, a row of 768 entries cut in three thirds (update, reset, candidate). The logistic function
  1/2 * tanh (1/2 * t) + 1/2 arrives in two summands, 1/2 * tanh (1/2 * t) and the constant 1/2, which are added
  where the gate is used. Each of the three running sums gains its masked term.
-/
import proofs.«415521_j60309930770883_3_alg».proof.Proof.Gen.KernelIdeal.Frame
import proofs.«415521_j60309930770883_3_alg».proof.Proof.Spec
import proofs.«415521_j60309930770883_3_alg».proof.Proof.KOps

noncomputable section

open scoped BigOperators

namespace Cert.KernelIdeal.KIter1

open Cert.KernelIdeal Cert.KernelIdeal.Gen Cert.KernelIdeal.KOps Idealize.ShloMosaic Idealize.ShloMosaic.ValueIdx Cert.GruSpec

/-! ## The mask words and the mask numbers -/

theorem words1 (v80 : Vec Ideal S1x2048 .i32) (p : Fin 2048) :
    k0_pay18 (F := Ideal) v80 (ix1 p) = v80 (ix2 (0 : Fin 1) p) := by
  unfold k0_pay18
  rw [rowWords]

theorem mask1 (v81 : IVec S2048 32) (p : Fin 2048) (q : Fin 256) :
    k0_pay19 (F := Ideal) v81 (ix2 p q) = mfloat (IntOp.cmpi .ne (v81 (ix1 p)) 0#32) := by
  unfold k0_pay19
  rw [maskRow]

/-! ## The state product and the recurrent projection -/

/-- Entry (p, u) of s: the state entry times the looked-up table row's entry. -/
theorem state1 (E : FVec Ideal S128x256 .bf16) (ET : Vec Ideal S1x2048 .i32) (S : Vec Ideal S1x2048x256 .f32)
    (p : Fin 2048) (u : Fin 256) :
    k0_pay20 E (iota .tc S2048x128 32 [1] iota_S2048x128_d1_w32) ET S (ix2 p u)
      = S (ix3 (0 : Fin 1) p u) * embK (fun e u' => E (ix2 e u')) (ET (ix2 (0 : Fin 1) p)) u := by
  unfold k0_pay20
  rw [mulf_apply, stateBlock, matmulOH]
  unfold embK
  refine congrArg (fun t => S (ix3 (0 : Fin 1) p u) * t) ?_
  refine Finset.sum_congr rfl fun e _ => ?_
  rw [onehotRow, rowWords]

/-- Entry (p, v) of s R + (bias row). -/
theorem recur1 (E : FVec Ideal S128x256 .bf16) (ET : Vec Ideal S1x2048 .i32) (S : Vec Ideal S1x2048x256 .f32)
    (R : Vec Ideal S1x256x768 .bf16) (B : Vec Ideal S1x768 .f32) (p : Fin 2048) (v : Fin 768) :
    k0_pay21 E (iota .tc S2048x128 32 [1] iota_S2048x128_d1_w32) ET S R B (ix2 p v)
      = recur (fun u => S (ix3 (0 : Fin 1) p u) * embK (fun e u' => E (ix2 e u')) (ET (ix2 (0 : Fin 1) p)) u)
          (fun u v' => R (ix3 (0 : Fin 1) u v')) (fun v' => B (ix2 (0 : Fin 1) v')) v := by
  unfold k0_pay21
  rw [addf_apply, matmulXW, biasRow]
  unfold recur
  congr 1
  refine Finset.sum_congr rfl fun u _ => ?_
  rw [truncf_apply, state1, weightBlock]

/-- The reset third of the recurrent projection. -/
theorem slotR1 (E : FVec Ideal S128x256 .bf16) (ET : Vec Ideal S1x2048 .i32) (S : Vec Ideal S1x2048x256 .f32)
    (R : Vec Ideal S1x256x768 .bf16) (B : Vec Ideal S1x768 .f32) (p : Fin 2048) (q : Fin 256) :
    k0_pay22 E (iota .tc S2048x128 32 [1] iota_S2048x128_d1_w32) ET S R B (ix2 p q)
      = recur (fun u => S (ix3 (0 : Fin 1) p u) * embK (fun e u' => E (ix2 e u')) (ET (ix2 (0 : Fin 1) p)) u)
          (fun u v' => R (ix3 (0 : Fin 1) u v')) (fun v' => B (ix2 (0 : Fin 1) v')) (cr q) := by
  unfold k0_pay22
  rw [third1, recur1]

/-- The candidate third of the recurrent projection. -/
theorem slotH1 (E : FVec Ideal S128x256 .bf16) (ET : Vec Ideal S1x2048 .i32) (S : Vec Ideal S1x2048x256 .f32)
    (R : Vec Ideal S1x256x768 .bf16) (B : Vec Ideal S1x768 .f32) (p : Fin 2048) (q : Fin 256) :
    k0_pay23 E (iota .tc S2048x128 32 [1] iota_S2048x128_d1_w32) ET S R B (ix2 p q)
      = recur (fun u => S (ix3 (0 : Fin 1) p u) * embK (fun e u' => E (ix2 e u')) (ET (ix2 (0 : Fin 1) p)) u)
          (fun u v' => R (ix3 (0 : Fin 1) u v')) (fun v' => B (ix2 (0 : Fin 1) v')) (ch q) := by
  unfold k0_pay23
  rw [third2, recur1]

/-! ## The update gate in two summands -/

/-- The first summand of the update gate: 1/2 * tanh (1/2 * (x_z + rc[q])). -/
theorem half1 (v10 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay24 v10 E (iota .tc S2048x128 32 [1] iota_S2048x128_d1_w32) ET S R B (ix2 p q)
      = lit 0x3F000000#32 * Ideal.tanh (lit 0x3F000000#32 * (v10 (ix2 p q)
          + recur (fun u => S (ix3 (0 : Fin 1) p u) * embK (fun e u' => E (ix2 e u')) (ET (ix2 (0 : Fin 1) p)) u)
              (fun u v' => R (ix3 (0 : Fin 1) u v')) (fun v' => B (ix2 (0 : Fin 1) v')) (cz q))) := by
  unfold k0_pay24
  show lit 0x3F000000#32 * Ideal.tanh (lit 0x3F000000#32 * (v10 (ix2 p q)
      + extractStridedSlice S2048x256 ![0, 0] (k0_pay21 E (iota .tc S2048x128 32 [1] iota_S2048x128_d1_w32) ET S R B) slices_S2048x768_o0_0_S2048x256 (ix2 p q))) = _
  rw [third0, recur1]

/-- The second summand of the update gate: the constant 1/2. -/
theorem const1 (i : S2048x256.Idx) : k0_pay25 (F := Ideal) i = lit 0x3F000000#32 := rfl

/-- The two summands added are the update gate. -/
theorem gate1 (v10 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay26 (k0_pay24 v10 E (iota .tc S2048x128 32 [1] iota_S2048x128_d1_w32) ET S R B) (k0_pay25 (F := Ideal)) (ix2 p q)
      = gateT (v10 (ix2 p q)
          + recur (fun u => S (ix3 (0 : Fin 1) p u) * embK (fun e u' => E (ix2 e u')) (ET (ix2 (0 : Fin 1) p)) u)
              (fun u v' => R (ix3 (0 : Fin 1) u v')) (fun v' => B (ix2 (0 : Fin 1) v')) (cz q)) := by
  unfold k0_pay26
  rw [addf_apply, half1, const1]
  rfl

/-! ## The three running sums after this edge type -/

theorem accH1 (v11 v74 v88 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay27 v11 v74 v88 (k0_pay22 E (iota .tc S2048x128 32 [1] iota_S2048x128_d1_w32) ET S R B) (k0_pay23 E (iota .tc S2048x128 32 [1] iota_S2048x128_d1_w32) ET S R B) (ix2 p q)
      = v74 (ix2 p q) + termH (v88 (ix2 p q)) (embK (fun e u => E (ix2 e u)) (ET (ix2 (0 : Fin 1) p)))
          (fun u => S (ix3 (0 : Fin 1) p u)) (fun u v => R (ix3 (0 : Fin 1) u v)) (fun v => B (ix2 (0 : Fin 1) v))
          (v11 (ix2 p q)) q := by
  unfold k0_pay27
  show v74 (ix2 p q) + v88 (ix2 p q) * ((lit 0x3F000000#32 * Ideal.tanh (lit 0x3F000000#32 * (v11 (ix2 p q)
      + k0_pay22 E (iota .tc S2048x128 32 [1] iota_S2048x128_d1_w32) ET S R B (ix2 p q))) + lit 0x3F000000#32) * k0_pay23 E (iota .tc S2048x128 32 [1] iota_S2048x128_d1_w32) ET S R B (ix2 p q)) = _
  rw [slotR1, slotH1]
  rfl

theorem accZH1 (v10 v77 v88 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay28 v77 v88 (k0_pay20 E (iota .tc S2048x128 32 [1] iota_S2048x128_d1_w32) ET S) (k0_pay24 v10 E (iota .tc S2048x128 32 [1] iota_S2048x128_d1_w32) ET S R B) (k0_pay25 (F := Ideal)) (ix2 p q)
      = v77 (ix2 p q) + termZH (v88 (ix2 p q)) (embK (fun e u => E (ix2 e u)) (ET (ix2 (0 : Fin 1) p)))
          (fun u => S (ix3 (0 : Fin 1) p u)) (fun u v => R (ix3 (0 : Fin 1) u v)) (fun v => B (ix2 (0 : Fin 1) v))
          (v10 (ix2 p q)) q := by
  unfold k0_pay28
  show v77 (ix2 p q) + v88 (ix2 p q) * (k0_pay26 (k0_pay24 v10 E (iota .tc S2048x128 32 [1] iota_S2048x128_d1_w32) ET S R B) (k0_pay25 (F := Ideal)) (ix2 p q)
      * k0_pay20 E (iota .tc S2048x128 32 [1] iota_S2048x128_d1_w32) ET S (ix2 p q)) = _
  rw [gate1, state1]
  rfl

theorem accZ1 (v10 v79 v88 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay29 v79 v88 (k0_pay24 v10 E (iota .tc S2048x128 32 [1] iota_S2048x128_d1_w32) ET S R B) (k0_pay25 (F := Ideal)) (ix2 p q)
      = v79 (ix2 p q) + termZ (v88 (ix2 p q)) (embK (fun e u => E (ix2 e u)) (ET (ix2 (0 : Fin 1) p)))
          (fun u => S (ix3 (0 : Fin 1) p u)) (fun u v => R (ix3 (0 : Fin 1) u v)) (fun v => B (ix2 (0 : Fin 1) v))
          (v10 (ix2 p q)) q := by
  unfold k0_pay29
  show v79 (ix2 p q) + v88 (ix2 p q) * k0_pay26 (k0_pay24 v10 E (iota .tc S2048x128 32 [1] iota_S2048x128_d1_w32) ET S R B) (k0_pay25 (F := Ideal)) (ix2 p q) = _
  rw [gate1]
  rfl

end Cert.KernelIdeal.KIter1

end
-- ==== Proof.KIter2.lean ====
/-
  The third edge type's contribution, read at one element of the block.
  The mask words become numbers 0/1. The index words, clipped into [0, 39], become an indicator row; that row times the
  padded table is the looked-up table row, and the state row times it, entrywise, is s. Then s R + (bias row) is the
  recurrent projection, cut in three thirds (update, reset, candidate); the update and reset gates are the logistic
  function, written through tanh, of the input projection plus the matching third; and the three running sums each
  gain the mask number times their term.
-/
import proofs.«415521_j60309930770883_3_alg».proof.Proof.Gen.KernelIdeal.Frame
import proofs.«415521_j60309930770883_3_alg».proof.Proof.Spec
import proofs.«415521_j60309930770883_3_alg».proof.Proof.KOps

noncomputable section

open scoped BigOperators

namespace Cert.KernelIdeal.KIter2

open Cert.KernelIdeal Cert.KernelIdeal.Gen Cert.KernelIdeal.KOps Idealize.ShloMosaic Idealize.ShloMosaic.ValueIdx Cert.GruSpec

/-! ## The mask numbers -/

theorem mask2 (v141 : Vec Ideal S1x2048 .i32) (p : Fin 2048) (q : Fin 256) :
    k0_pay30 (F := Ideal) v141 (ix2 p q) = mfloat (IntOp.cmpi .ne (v141 (ix2 (0 : Fin 1) p)) 0#32) := by
  unfold k0_pay30
  rw [maskRow, rowWords]

/-! ## The state row times the looked-up table row -/

/-- Entry (p, u) of s: the state entry times the sum, over the table's rows, of the indicator row's entry times the
    table's entry. -/
theorem state2 (E : FVec Ideal S128x256 .bf16) (ET : Vec Ideal S1x2048 .i32) (S : Vec Ideal S1x2048x256 .f32)
    (p : Fin 2048) (u : Fin 256) :
    k0_pay31 E (iota .tc S2048x128 32 [1] iota_S2048x128_d1_w32) ET S (ix2 p u)
      = S (ix3 (0 : Fin 1) p u) * embK (fun e u' => E (ix2 e u')) (ET (ix2 (0 : Fin 1) p)) u := by
  unfold k0_pay31
  rw [mulf_apply, stateBlock, matmulOH]
  unfold embK
  refine congrArg (fun t => S (ix3 (0 : Fin 1) p u) * t) (Finset.sum_congr rfl fun e _ => ?_)
  rw [onehotRow, rowWords]

/-- The same entry after the format change, which is the identity on exact numbers. -/
theorem stateT2 (E : FVec Ideal S128x256 .bf16) (ET : Vec Ideal S1x2048 .i32) (S : Vec Ideal S1x2048x256 .f32)
    (p : Fin 2048) (u : Fin 256) :
    k0_pay32 E (iota .tc S2048x128 32 [1] iota_S2048x128_d1_w32) ET S (ix2 p u)
      = S (ix3 (0 : Fin 1) p u) * embK (fun e u' => E (ix2 e u')) (ET (ix2 (0 : Fin 1) p)) u := by
  unfold k0_pay32
  rw [truncf_apply, state2]

/-- Row p of s as a function of the column. -/
theorem srow2 (E : FVec Ideal S128x256 .bf16) (ET : Vec Ideal S1x2048 .i32) (S : Vec Ideal S1x2048x256 .f32)
    (p : Fin 2048) :
    (fun u : Fin 256 => k0_pay32 E (iota .tc S2048x128 32 [1] iota_S2048x128_d1_w32) ET S (ix2 p u))
      = fun u => S (ix3 (0 : Fin 1) p u) * embK (fun e u' => E (ix2 e u')) (ET (ix2 (0 : Fin 1) p)) u :=
  funext fun u => stateT2 E ET S p u

/-! ## The recurrent projection and the update gate -/

/-- Entry (p, v) of s R + (bias row), for any s. -/
theorem recur2 (v166 : FVec Ideal S2048x256 .bf16) (R : Vec Ideal S1x256x768 .bf16) (B : Vec Ideal S1x768 .f32)
    (p : Fin 2048) (v : Fin 768) :
    k0_pay33 v166 R B (ix2 p v)
      = recur (fun u => v166 (ix2 p u)) (fun u v' => R (ix3 (0 : Fin 1) u v')) (fun v' => B (ix2 (0 : Fin 1) v')) v := by
  unfold k0_pay33
  rw [addf_apply, matmulXW, biasRow]
  unfold recur
  congr 1
  refine Finset.sum_congr rfl fun u _ => ?_
  rw [weightBlock]

/-- The update gate: the logistic function, through tanh, of the input projection's first third plus the recurrent
    projection's first third. -/
theorem gate2 (v10 : FVec Ideal S2048x256 .f32) (v166 : FVec Ideal S2048x256 .bf16) (R : Vec Ideal S1x256x768 .bf16)
    (B : Vec Ideal S1x768 .f32) (p : Fin 2048) (q : Fin 256) :
    k0_pay34 v10 v166 R B (ix2 p q)
      = gateT (v10 (ix2 p q) + recur (fun u => v166 (ix2 p u)) (fun u v' => R (ix3 (0 : Fin 1) u v'))
          (fun v' => B (ix2 (0 : Fin 1) v')) (cz q)) := by
  unfold k0_pay34
  show lit 0x3F000000#32 * Ideal.tanh (lit 0x3F000000#32 * (v10 (ix2 p q) + extractStridedSlice S2048x256 ![0, 0] (k0_pay33 v166 R B) slices_S2048x768_o0_0_S2048x256 (ix2 p q))) + lit 0x3F000000#32 = _
  rw [third0, recur2]
  rfl

/-! ## The three running sums after this edge type -/

theorem accH2 (v11 v135 v149 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay35 v11 v135 v149 (k0_pay32 E (iota .tc S2048x128 32 [1] iota_S2048x128_d1_w32) ET S) R B (ix2 p q)
    = v135 (ix2 p q) + termH (v149 (ix2 p q)) (embK (fun e u => E (ix2 e u)) (ET (ix2 (0 : Fin 1) p))) (fun u => S (ix3 (0 : Fin 1) p u)) (fun u v => R (ix3 (0 : Fin 1) u v)) (fun v => B (ix2 (0 : Fin 1) v)) (v11 (ix2 p q)) q := by
  unfold k0_pay35
  show v135 (ix2 p q) + v149 (ix2 p q) * ((lit 0x3F000000#32 * Ideal.tanh (lit 0x3F000000#32 * (v11 (ix2 p q)
      + extractStridedSlice S2048x256 ![0, 256] (k0_pay33 (k0_pay32 E (iota .tc S2048x128 32 [1] iota_S2048x128_d1_w32) ET S) R B) slices_S2048x768_o0_256_S2048x256 (ix2 p q))) + lit 0x3F000000#32)
      * extractStridedSlice S2048x256 ![0, 512] (k0_pay33 (k0_pay32 E (iota .tc S2048x128 32 [1] iota_S2048x128_d1_w32) ET S) R B) slices_S2048x768_o0_512_S2048x256 (ix2 p q)) = _
  rw [third1, third2, recur2, recur2, srow2]
  rfl

theorem accZH2 (v10 v138 v149 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay36 v10 v138 v149 (k0_pay31 E (iota .tc S2048x128 32 [1] iota_S2048x128_d1_w32) ET S) (k0_pay32 E (iota .tc S2048x128 32 [1] iota_S2048x128_d1_w32) ET S) R B (ix2 p q)
    = v138 (ix2 p q) + termZH (v149 (ix2 p q)) (embK (fun e u => E (ix2 e u)) (ET (ix2 (0 : Fin 1) p))) (fun u => S (ix3 (0 : Fin 1) p u)) (fun u v => R (ix3 (0 : Fin 1) u v)) (fun v => B (ix2 (0 : Fin 1) v)) (v10 (ix2 p q)) q := by
  unfold k0_pay36
  show v138 (ix2 p q) + v149 (ix2 p q) * (k0_pay34 v10 (k0_pay32 E (iota .tc S2048x128 32 [1] iota_S2048x128_d1_w32) ET S) R B (ix2 p q)
      * k0_pay31 E (iota .tc S2048x128 32 [1] iota_S2048x128_d1_w32) ET S (ix2 p q)) = _
  rw [gate2, state2, srow2]
  rfl

theorem accZ2 (v10 v140 v149 : FVec Ideal S2048x256 .f32) (E : FVec Ideal S128x256 .bf16) (ET : Vec Ideal S1x2048 .i32)
    (S : Vec Ideal S1x2048x256 .f32) (R : Vec Ideal S1x256x768 .bf16) (B : Vec Ideal S1x768 .f32)
    (p : Fin 2048) (q : Fin 256) :
    k0_pay37 v10 v140 v149 (k0_pay32 E (iota .tc S2048x128 32 [1] iota_S2048x128_d1_w32) ET S) R B (ix2 p q)
    = v140 (ix2 p q) + termZ (v149 (ix2 p q)) (embK (fun e u => E (ix2 e u)) (ET (ix2 (0 : Fin 1) p))) (fun u => S (ix3 (0 : Fin 1) p u)) (fun u v => R (ix3 (0 : Fin 1) u v)) (fun v => B (ix2 (0 : Fin 1) v)) (v10 (ix2 p q)) q := by
  unfold k0_pay37
  show v140 (ix2 p q) + v149 (ix2 p q) * k0_pay34 v10 (k0_pay32 E (iota .tc S2048x128 32 [1] iota_S2048x128_d1_w32) ET S) R B (ix2 p q) = _
  rw [gate2, srow2]
  rfl

end Cert.KernelIdeal.KIter2

end
-- ==== Proof.KIter3.lean ====
/-
  The last edge type's contribution and the closing expression, read at one element of the block.
  For edge type 3 the mask words become numbers 0/1; the index words, already a vector, are clipped into [0, 39] and
  turned into an indicator row, whose product with the padded table is the looked-up table row; the state row times
  that row is s, and s R + (bias row 4) is the recurrent projection, cut in three thirds (update, reset, candidate).
  The update and reset gates are the logistic function, written through tanh, of the input projection's third plus the
  recurrent projection's third. The closing expression adds the three masked terms onto the running sums and forms
  (1 - accZ / 4) * tanh (x_h + accH / 4) + accZH / 4.
-/
import proofs.«415521_j60309930770883_3_alg».proof.Proof.Gen.KernelIdeal.Frame
import proofs.«415521_j60309930770883_3_alg».proof.Proof.Spec
import proofs.«415521_j60309930770883_3_alg».proof.Proof.KOps

noncomputable section

open scoped BigOperators

namespace Cert.KernelIdeal.KIter3

open Cert.KernelIdeal Cert.KernelIdeal.Gen Cert.KernelIdeal.KOps Idealize.ShloMosaic Idealize.ShloMosaic.ValueIdx Cert.GruSpec

/-! ## The mask numbers and the index words -/

theorem mask3 (v202 : Vec Ideal S1x2048 .i32) (p : Fin 2048) (q : Fin 256) :
    k0_pay38 (F := Ideal) v202 (ix2 p q) = mfloat (IntOp.cmpi .ne (v202 (ix2 (0 : Fin 1) p)) 0#32) := by
  unfold k0_pay38
  rw [maskRow, rowWords]

theorem words3 (v211 : Vec Ideal S1x2048 .i32) (p : Fin 2048) :
    k0_pay39 (F := Ideal) v211 (ix1 p) = v211 (ix2 (0 : Fin 1) p) := by
  unfold k0_pay39
  rw [rowWords]

/-! ## The state product and the recurrent projection -/

/-- s = (state row) * (looked-up table row), entry u. -/
theorem state3 (E : FVec Ideal S128x256 .bf16) (ET' : IVec S2048 32) (S : Vec Ideal S1x2048x256 .f32)
    (p : Fin 2048) (u : Fin 256) :
    k0_pay40 E (iota .tc S2048x128 32 [1] iota_S2048x128_d1_w32) ET' S (ix2 p u)
      = S (ix3 (0 : Fin 1) p u) * embK (fun e u' => E (ix2 e u')) (ET' (ix1 p)) u := by
  unfold k0_pay40
  rw [mulf_apply, stateBlock, matmulOH]
  unfold embK
  refine congrArg (fun t => S (ix3 (0 : Fin 1) p u) * t) (Finset.sum_congr rfl fun e _ => ?_)
  rw [onehotRow]

/-- s R + b, entry v. -/
theorem recur3 (E : FVec Ideal S128x256 .bf16) (ET' : IVec S2048 32) (S : Vec Ideal S1x2048x256 .f32)
    (R : Vec Ideal S1x256x768 .bf16) (B : Vec Ideal S1x768 .f32) (p : Fin 2048) (v : Fin 768) :
    k0_pay41 E (iota .tc S2048x128 32 [1] iota_S2048x128_d1_w32) ET' S R B (ix2 p v)
      = recur (fun u => S (ix3 (0 : Fin 1) p u) * embK (fun e u' => E (ix2 e u')) (ET' (ix1 p)) u)
          (fun u v' => R (ix3 (0 : Fin 1) u v')) (fun v' => B (ix2 (0 : Fin 1) v')) v := by
  unfold k0_pay41
  rw [addf_apply, matmulXW, biasRow]
  unfold recur
  refine congrArg (fun t => t + B (ix2 (0 : Fin 1) v)) (Finset.sum_congr rfl fun u _ => ?_)
  rw [truncf_apply, state3, weightBlock]

/-! ## The candidate third and the two gates -/

theorem cand3 (E : FVec Ideal S128x256 .bf16) (ET' : IVec S2048 32) (S : Vec Ideal S1x2048x256 .f32)
    (R : Vec Ideal S1x256x768 .bf16) (B : Vec Ideal S1x768 .f32) (p : Fin 2048) (q : Fin 256) :
    k0_pay42 E (iota .tc S2048x128 32 [1] iota_S2048x128_d1_w32) ET' S R B (ix2 p q)
      = recur (fun u => S (ix3 (0 : Fin 1) p u) * embK (fun e u' => E (ix2 e u')) (ET' (ix1 p)) u)
          (fun u v' => R (ix3 (0 : Fin 1) u v')) (fun v' => B (ix2 (0 : Fin 1) v')) (ch q) := by
  unfold k0_pay42
  rw [third2, recur3]

theorem gateZ3 (v10 : FVec Ideal S2048x256 .f32) (E : FVec Ideal S128x256 .bf16) (ET' : IVec S2048 32)
    (S : Vec Ideal S1x2048x256 .f32) (R : Vec Ideal S1x256x768 .bf16) (B : Vec Ideal S1x768 .f32)
    (p : Fin 2048) (q : Fin 256) :
    k0_pay43 v10 E (iota .tc S2048x128 32 [1] iota_S2048x128_d1_w32) ET' S R B (ix2 p q)
      = gateT (v10 (ix2 p q) + recur (fun u => S (ix3 (0 : Fin 1) p u) * embK (fun e u' => E (ix2 e u')) (ET' (ix1 p)) u)
          (fun u v' => R (ix3 (0 : Fin 1) u v')) (fun v' => B (ix2 (0 : Fin 1) v')) (cz q)) := by
  unfold k0_pay43
  show lit 0x3F000000#32 * Ideal.tanh (lit 0x3F000000#32 * (v10 (ix2 p q)
      + extractStridedSlice S2048x256 ![0, 0] (k0_pay41 E (iota .tc S2048x128 32 [1] iota_S2048x128_d1_w32) ET' S R B) slices_S2048x768_o0_0_S2048x256 (ix2 p q)))
      + lit 0x3F000000#32 = _
  rw [third0, recur3]
  rfl

theorem gateR3 (v11 : FVec Ideal S2048x256 .f32) (E : FVec Ideal S128x256 .bf16) (ET' : IVec S2048 32)
    (S : Vec Ideal S1x2048x256 .f32) (R : Vec Ideal S1x256x768 .bf16) (B : Vec Ideal S1x768 .f32)
    (p : Fin 2048) (q : Fin 256) :
    k0_pay44 v11 E (iota .tc S2048x128 32 [1] iota_S2048x128_d1_w32) ET' S R B (ix2 p q)
      = gateT (v11 (ix2 p q) + recur (fun u => S (ix3 (0 : Fin 1) p u) * embK (fun e u' => E (ix2 e u')) (ET' (ix1 p)) u)
          (fun u v' => R (ix3 (0 : Fin 1) u v')) (fun v' => B (ix2 (0 : Fin 1) v')) (cr q)) := by
  unfold k0_pay44
  show lit 0x3F000000#32 * Ideal.tanh (lit 0x3F000000#32 * (v11 (ix2 p q)
      + extractStridedSlice S2048x256 ![0, 256] (k0_pay41 E (iota .tc S2048x128 32 [1] iota_S2048x128_d1_w32) ET' S R B) slices_S2048x768_o0_256_S2048x256 (ix2 p q)))
      + lit 0x3F000000#32 = _
  rw [third1, recur3]
  rfl

/-! ## The closing expression -/

theorem out3 (v10 v11 v12 v196 v199 v201 v210 : FVec Ideal S2048x256 .f32) (E : FVec Ideal S128x256 .bf16)
    (ET' : IVec S2048 32) (S : Vec Ideal S1x2048x256 .f32) (R : Vec Ideal S1x256x768 .bf16) (B : Vec Ideal S1x768 .f32)
    (p : Fin 2048) (q : Fin 256) :
    k0_pay1 v12 v196 v199 v201 v210 (k0_pay40 E (iota .tc S2048x128 32 [1] iota_S2048x128_d1_w32) ET' S) (k0_pay42 E (iota .tc S2048x128 32 [1] iota_S2048x128_d1_w32) ET' S R B) (k0_pay43 v10 E (iota .tc S2048x128 32 [1] iota_S2048x128_d1_w32) ET' S R B) (k0_pay44 v11 E (iota .tc S2048x128 32 [1] iota_S2048x128_d1_w32) ET' S R B) (ix2 p q)
    = finish (v12 (ix2 p q))
        (v196 (ix2 p q) + termH (v210 (ix2 p q)) (embK (fun e u => E (ix2 e u)) (ET' (ix1 p))) (fun u => S (ix3 (0 : Fin 1) p u)) (fun u v => R (ix3 (0 : Fin 1) u v)) (fun v => B (ix2 (0 : Fin 1) v)) (v11 (ix2 p q)) q)
        (v199 (ix2 p q) + termZH (v210 (ix2 p q)) (embK (fun e u => E (ix2 e u)) (ET' (ix1 p))) (fun u => S (ix3 (0 : Fin 1) p u)) (fun u v => R (ix3 (0 : Fin 1) u v)) (fun v => B (ix2 (0 : Fin 1) v)) (v10 (ix2 p q)) q)
        (v201 (ix2 p q) + termZ (v210 (ix2 p q)) (embK (fun e u => E (ix2 e u)) (ET' (ix1 p))) (fun u => S (ix3 (0 : Fin 1) p u)) (fun u v => R (ix3 (0 : Fin 1) u v)) (fun v => B (ix2 (0 : Fin 1) v)) (v10 (ix2 p q)) q) := by
  unfold k0_pay1
  show (lit 0x3F800000#32
        - (v201 (ix2 p q) + v210 (ix2 p q) * k0_pay43 v10 E (iota .tc S2048x128 32 [1] iota_S2048x128_d1_w32) ET' S R B (ix2 p q)) * lit 0x3E800000#32)
      * Ideal.tanh (v12 (ix2 p q)
        + (v196 (ix2 p q) + v210 (ix2 p q) * (k0_pay44 v11 E (iota .tc S2048x128 32 [1] iota_S2048x128_d1_w32) ET' S R B (ix2 p q) * k0_pay42 E (iota .tc S2048x128 32 [1] iota_S2048x128_d1_w32) ET' S R B (ix2 p q)))
          * lit 0x3E800000#32)
      + (v199 (ix2 p q) + v210 (ix2 p q) * (k0_pay43 v10 E (iota .tc S2048x128 32 [1] iota_S2048x128_d1_w32) ET' S R B (ix2 p q) * k0_pay40 E (iota .tc S2048x128 32 [1] iota_S2048x128_d1_w32) ET' S (ix2 p q)))
        * lit 0x3E800000#32 = _
  rw [gateZ3, gateR3, cand3, state3]
  rfl

end Cert.KernelIdeal.KIter3

end
-- ==== Proof.KCell.lean ====
/-
  The kernel body's block, element by element, is the specification's cell of the input blocks.
  The one store writes the whole block; its value is the closing expression over the three running sums, each of which
  is zero plus the four edge types' terms added one after the other. Reading each piece at (p, q) turns the sums into the
  specification's terms; the loads of one row of the index words, mask words, states, weights and biases read that row.
-/
import proofs.«415521_j60309930770883_3_alg».proof.Proof.KStmt
import proofs.«415521_j60309930770883_3_alg».proof.Proof.KOps
import proofs.«415521_j60309930770883_3_alg».proof.Proof.KIter0
import proofs.«415521_j60309930770883_3_alg».proof.Proof.KIter1
import proofs.«415521_j60309930770883_3_alg».proof.Proof.KIter2
import proofs.«415521_j60309930770883_3_alg».proof.Proof.KIter3

noncomputable section

open scoped BigOperators

namespace Cert.KernelIdeal.KCell

open Cert.KernelIdeal Cert.KernelIdeal.Gen Cert.KernelIdeal.KOps Cert.KernelIdeal.KStmt Idealize.ShloMosaic
  Idealize.ShloMosaic.ValueIdx Cert.GruSpec

private theorem zero2 : (![0, 0] : Fin 2 → Nat) = fun _ => 0 := by
  funext a; match a with | ⟨0, _⟩ => rfl | ⟨1, _⟩ => rfl
private theorem zero3 : (![0, 0, 0] : Fin 3 → Nat) = fun _ => 0 := by
  funext a; match a with | ⟨0, _⟩ => rfl | ⟨1, _⟩ => rfl | ⟨2, _⟩ => rfl

theorem cell : CellStmt := by
  intro x0 x1 x2 x3 x4 x5 x6 x7 p q
  unfold out0_8
  rw [View.canon_unit_zero zero2]
  rw [KIter3.out3, KIter2.accH2, KIter2.accZH2, KIter2.accZ2, KIter1.accH1, KIter1.accZH1, KIter1.accZ1,
    KIter0.accH0, KIter0.accZH0, KIter0.accZ0]
  -- the whole-array loads
  have l0 : View.ld x0 r0_0 = x0 := View.ld_unit_zero (S := S2048x256) zero2 _ x0
  have l4 : View.ld x4 r0_1 = x4 := View.ld_unit_zero (S := S256x768) zero2 _ x4
  have l7 : View.ld x7 r0_3 = x7 := View.ld_unit_zero (S := S128x256) zero2 _ x7
  -- the one-row loads: bias rows 0..4, index and mask words of edge types 0..3, their state and weight blocks
  have b0 : ∀ v, View.ld x6 r0_2 (ix2 (0 : Fin 1) v) = x6 (ix2 0 v) := fun v => ldBias x6 0 _ v
  have b1 : ∀ v, View.ld x6 r0_7 (ix2 (0 : Fin 1) v) = x6 (ix2 1 v) := fun v => ldBias x6 1 _ v
  have b2 : ∀ v, View.ld x6 r0_11 (ix2 (0 : Fin 1) v) = x6 (ix2 2 v) := fun v => ldBias x6 2 _ v
  have b3 : ∀ v, View.ld x6 r0_15 (ix2 (0 : Fin 1) v) = x6 (ix2 3 v) := fun v => ldBias x6 3 _ v
  have b4 : ∀ v, View.ld x6 r0_19 (ix2 (0 : Fin 1) v) = x6 (ix2 4 v) := fun v => ldBias x6 4 _ v
  have e0 : ∀ p', View.ld x2 r0_4 (ix2 (0 : Fin 1) p') = x2 (ix2 0 p') := fun p' => ldWords x2 0 _ p'
  have e1 : ∀ p', View.ld x2 r0_8 (ix2 (0 : Fin 1) p') = x2 (ix2 1 p') := fun p' => ldWords x2 1 _ p'
  have e2 : ∀ p', View.ld x2 r0_12 (ix2 (0 : Fin 1) p') = x2 (ix2 2 p') := fun p' => ldWords x2 2 _ p'
  have e3 : ∀ p', View.ld x2 r0_16 (ix2 (0 : Fin 1) p') = x2 (ix2 3 p') := fun p' => ldWords x2 3 _ p'
  have m0 : ∀ p', View.ld x3 r0_4 (ix2 (0 : Fin 1) p') = x3 (ix2 0 p') := fun p' => ldWords x3 0 _ p'
  have m1 : ∀ p', View.ld x3 r0_8 (ix2 (0 : Fin 1) p') = x3 (ix2 1 p') := fun p' => ldWords x3 1 _ p'
  have m2 : ∀ p', View.ld x3 r0_12 (ix2 (0 : Fin 1) p') = x3 (ix2 2 p') := fun p' => ldWords x3 2 _ p'
  have m3 : ∀ p', View.ld x3 r0_16 (ix2 (0 : Fin 1) p') = x3 (ix2 3 p') := fun p' => ldWords x3 3 _ p'
  have s0 : ∀ p' u, View.ld x1 r0_5 (ix3 (0 : Fin 1) p' u) = x1 (ix3 0 p' u) := fun p' u => ldState x1 0 _ p' u
  have s1 : ∀ p' u, View.ld x1 r0_9 (ix3 (0 : Fin 1) p' u) = x1 (ix3 1 p' u) := fun p' u => ldState x1 1 _ p' u
  have s2 : ∀ p' u, View.ld x1 r0_13 (ix3 (0 : Fin 1) p' u) = x1 (ix3 2 p' u) := fun p' u => ldState x1 2 _ p' u
  have s3 : ∀ p' u, View.ld x1 r0_17 (ix3 (0 : Fin 1) p' u) = x1 (ix3 3 p' u) := fun p' u => ldState x1 3 _ p' u
  have w0 : ∀ d v, View.ld x5 r0_6 (ix3 (0 : Fin 1) d v) = x5 (ix3 0 d v) := fun d v => ldWeight x5 0 _ d v
  have w1 : ∀ d v, View.ld x5 r0_10 (ix3 (0 : Fin 1) d v) = x5 (ix3 1 d v) := fun d v => ldWeight x5 1 _ d v
  have w2 : ∀ d v, View.ld x5 r0_14 (ix3 (0 : Fin 1) d v) = x5 (ix3 2 d v) := fun d v => ldWeight x5 2 _ d v
  have w3 : ∀ d v, View.ld x5 r0_18 (ix3 (0 : Fin 1) d v) = x5 (ix3 3 d v) := fun d v => ldWeight x5 3 _ d v
  simp only [KIter0.projZ, KIter0.projR, KIter0.projH, KIter0.table_eq, KIter0.zeroH, KIter0.zeroZH, KIter0.zeroZ,
    KIter0.mask0, KIter0.onehot0, KIter1.mask1, KIter1.words1, KIter2.mask2, KIter3.mask3, KIter3.words3,
    l0, l4, l7, b0, b1, b2, b3, b4, e0, e1, e2, e3, m0, m1, m2, m3, s0, s1, s2, s3, w0, w1, w2, w3]
  rfl

end Cert.KernelIdeal.KCell

end
-- ==== Proof.KFinal.lean ====
/-
  From blocks to the array. The kernel runs over sixteen grid points; point t stages rows 2048 t .. 2048 t + 2047 of
  the row-indexed arrays (the input rows, the four state planes, the four index rows and the four mask rows, the last
  two laid out edge type first) and the whole of the weight matrices, the bias rows and the padded table, and writes
  back rows 2048 t .. 2048 t + 2047 of the output. Given the statement about one block — element (p, q) of the block a
  point leaves is the cell function of row p of its input blocks — element (b, q) of the output array after the run is
  the same cell function of row b of the staged arrays: row p of point t's blocks is row 2048 t + p of the arrays, and
  every row b lies in the block of point b / 2048.
-/
import proofs.«415521_j60309930770883_3_alg».proof.Proof.Gen.KernelIdeal.Value
import proofs.«415521_j60309930770883_3_alg».proof.Proof.KStmt

set_option maxRecDepth 16384

noncomputable section

namespace Cert.KernelIdeal.KFinal
open Cert.KernelIdeal Cert.KernelIdeal.Gen Cert.KernelIdeal.KStmt Idealize.ShloMosaic Idealize.ShloMosaic.TcCoe Idealize.SL.Sem Idealize.ShloMosaic.ValueIdx
open Idealize.ShloMosaic.Pipeline (Dat)
variable (m : (ℓ : Loc nD τ sig) → Buf (Elt Ideal) ℓ) (ρ : Dev nD → PrngReg)

/-- the output array as one function of the staged arrays -/
def G (c : Dev nD) : S32768x256.Idx → EReal := fun i =>
  arrayCell (V m c main_arg0) (V m c main_arg1) (V m c main_v6) (V m c main_v8) (V m c main_v4) (V m c main_v5) (V m c main_arg6) (V m c main_v3) (i 0) (i 1)

/-- The grid has sixteen points; the output's block at point t is block (t, 0). -/
theorem idx_out : ∀ t : Fin cfg0.N, t.val < 16 ∧ win0_8.index t (0 : Fin 2) = t.val ∧ win0_8.index t (1 : Fin 2) = 0 :=
  (by decide +kernel : ∀ t : Fin grid0.N, _)

/-- The input rows' block at point t is block (t, 0). -/
theorem idx_rows : ∀ t : Fin cfg0.N, win0_0.index t (0 : Fin 2) = t.val ∧ win0_0.index t (1 : Fin 2) = 0 :=
  (by decide +kernel : ∀ t : Fin grid0.N, _)

/-- The states' block at point t is block (0, t, 0). -/
theorem idx_states : ∀ t : Fin cfg0.N, win0_1.index t (0 : Fin 3) = 0 ∧ win0_1.index t (1 : Fin 3) = t.val ∧ win0_1.index t (2 : Fin 3) = 0 :=
  (by decide +kernel : ∀ t : Fin grid0.N, _)

/-- The index words' block at point t is block (0, t). -/
theorem idx_words : ∀ t : Fin cfg0.N, win0_2.index t (0 : Fin 2) = 0 ∧ win0_2.index t (1 : Fin 2) = t.val :=
  (by decide +kernel : ∀ t : Fin grid0.N, _)

/-- The mask words' block at point t is block (0, t). -/
theorem idx_masks : ∀ t : Fin cfg0.N, win0_3.index t (0 : Fin 2) = 0 ∧ win0_3.index t (1 : Fin 2) = t.val :=
  (by decide +kernel : ∀ t : Fin grid0.N, _)

/-- The weights, the biases and the table are staged whole: block 0 on every axis at every point. -/
theorem idx_whole : ∀ t : Fin cfg0.N, (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Every block row of the output is some point's. -/
theorem idx_onto : ∀ r : Fin 16, ∃ t : Fin cfg0.N, win0_8.index t (0 : Fin 2) = r.val ∧ win0_8.index t (1 : Fin 2) = 0 :=
  (by decide +kernel : ∀ r : Fin 16, ∃ t : Fin grid0.N, win0_8.index t (0 : Fin 2) = r.val ∧ win0_8.index t (1 : Fin 2) = 0)

/-! ## Where a block's element sits in its array -/

/-- Row p, column d of the input rows' block at point t is row 2048 t + p, column d of the array. -/
theorem emb_rows (t : Fin cfg0.N) (p : Fin 2048) (d : Fin 256) (b : Fin 32768) (hb : b.val = 2048 * t.val + p.val) :
    ((cfg0.win 0).blk t).view.emb (ix2 p d) = (ix2 b d : S32768x256.Idx) := by
  obtain ⟨e0, e1⟩ := idx_rows t
  funext a; apply Fin.ext
  match a with
  | ⟨0, _⟩ => show win0_0.index t (0 : Fin 2) * 2048 + 1 * p.val = b.val; omega
  | ⟨1, _⟩ => show win0_0.index t (1 : Fin 2) * 256 + 1 * d.val = d.val; omega

/-- Plane k, row p, column u of the states' block at point t is plane k, row 2048 t + p, column u of the array. -/
theorem emb_states (t : Fin cfg0.N) (k : Fin 4) (p : Fin 2048) (u : Fin 256) (b : Fin 32768) (hb : b.val = 2048 * t.val + p.val) :
    ((cfg0.win 1).blk t).view.emb (ix3 k p u) = (ix3 k b u : S4x32768x256.Idx) := by
  obtain ⟨e0, e1, e2⟩ := idx_states t
  funext a; apply Fin.ext
  match a with
  | ⟨0, _⟩ => show win0_1.index t (0 : Fin 3) * 4 + 1 * k.val = k.val; omega
  | ⟨1, _⟩ => show win0_1.index t (1 : Fin 3) * 2048 + 1 * p.val = b.val; omega
  | ⟨2, _⟩ => show win0_1.index t (2 : Fin 3) * 256 + 1 * u.val = u.val; omega

/-- Edge type k, row p of the index words' block at point t is edge type k, row 2048 t + p of the array. -/
theorem emb_words (t : Fin cfg0.N) (k : Fin 4) (p : Fin 2048) (b : Fin 32768) (hb : b.val = 2048 * t.val + p.val) :
    ((cfg0.win 2).blk t).view.emb (ix2 k p) = (ix2 k b : S4x32768.Idx) := by
  obtain ⟨e0, e1⟩ := idx_words t
  funext a; apply Fin.ext
  match a with
  | ⟨0, _⟩ => show win0_2.index t (0 : Fin 2) * 4 + 1 * k.val = k.val; omega
  | ⟨1, _⟩ => show win0_2.index t (1 : Fin 2) * 2048 + 1 * p.val = b.val; omega

/-- Edge type k, row p of the mask words' block at point t is edge type k, row 2048 t + p of the array. -/
theorem emb_masks (t : Fin cfg0.N) (k : Fin 4) (p : Fin 2048) (b : Fin 32768) (hb : b.val = 2048 * t.val + p.val) :
    ((cfg0.win 3).blk t).view.emb (ix2 k p) = (ix2 k b : S4x32768.Idx) := by
  obtain ⟨e0, e1⟩ := idx_masks t
  funext a; apply Fin.ext
  match a with
  | ⟨0, _⟩ => show win0_3.index t (0 : Fin 2) * 4 + 1 * k.val = k.val; omega
  | ⟨1, _⟩ => show win0_3.index t (1 : Fin 2) * 2048 + 1 * p.val = b.val; omega

/-- The input weights are staged whole: an element of the block is the same element of the array. -/
theorem emb_w (t : Fin cfg0.N) (d : Fin 256) (v : Fin 768) :
    ((cfg0.win 4).blk t).view.emb (ix2 d v) = (ix2 d v : S256x768.Idx) := by
  obtain ⟨⟨e0, e1⟩, -, -, -⟩ := idx_whole t
  funext a; apply Fin.ext
  match a with
  | ⟨0, _⟩ => show win0_4.index t (0 : Fin 2) * 256 + 1 * d.val = d.val; omega
  | ⟨1, _⟩ => show win0_4.index t (1 : Fin 2) * 768 + 1 * v.val = v.val; omega

/-- So are the recurrent weights, -/
theorem emb_r (t : Fin cfg0.N) (k : Fin 4) (u : Fin 256) (v : Fin 768) :
    ((cfg0.win 5).blk t).view.emb (ix3 k u v) = (ix3 k u v : S4x256x768.Idx) := by
  obtain ⟨-, ⟨e0, e1, e2⟩, -, -⟩ := idx_whole t
  funext a; apply Fin.ext
  match a with
  | ⟨0, _⟩ => show win0_5.index t (0 : Fin 3) * 4 + 1 * k.val = k.val; omega
  | ⟨1, _⟩ => show win0_5.index t (1 : Fin 3) * 256 + 1 * u.val = u.val; omega
  | ⟨2, _⟩ => show win0_5.index t (2 : Fin 3) * 768 + 1 * v.val = v.val; omega

/-- the bias rows, -/
theorem emb_b (t : Fin cfg0.N) (j : Fin 5) (v : Fin 768) :
    ((cfg0.win 6).blk t).view.emb (ix2 j v) = (ix2 j v : S5x768.Idx) := by
  obtain ⟨-, -, ⟨e0, e1⟩, -⟩ := idx_whole t
  funext a; apply Fin.ext
  match a with
  | ⟨0, _⟩ => show win0_6.index t (0 : Fin 2) * 5 + 1 * j.val = j.val; omega
  | ⟨1, _⟩ => show win0_6.index t (1 : Fin 2) * 768 + 1 * v.val = v.val; omega

/-- and the padded table. -/
theorem emb_tbl (t : Fin cfg0.N) (e : Fin 128) (u : Fin 256) :
    ((cfg0.win 7).blk t).view.emb (ix2 e u) = (ix2 e u : S128x256.Idx) := by
  obtain ⟨-, -, -, ⟨e0, e1⟩⟩ := idx_whole t
  funext a; apply Fin.ext
  match a with
  | ⟨0, _⟩ => show win0_7.index t (0 : Fin 2) * 128 + 1 * e.val = e.val; omega
  | ⟨1, _⟩ => show win0_7.index t (1 : Fin 2) * 256 + 1 * u.val = u.val; omega

/-- Row p, column q of the output's block at point t is row 2048 t + p, column q of the array. -/
theorem emb_out (t : Fin cfg0.N) (p : Fin 2048) (q : Fin 256) (b : Fin 32768) (hb : b.val = 2048 * t.val + p.val) :
    ((cfg0.win 8).blk t).view.emb (ix2 p q) = (ix2 b q : S32768x256.Idx) := by
  obtain ⟨-, e0, e1⟩ := idx_out t
  funext a; apply Fin.ext
  match a with
  | ⟨0, _⟩ => show win0_8.index t (0 : Fin 2) * 2048 + 1 * p.val = b.val; omega
  | ⟨1, _⟩ => show win0_8.index t (1 : Fin 2) * 256 + 1 * q.val = q.val; omega

/-! ## One element: a block's cell is the array's cell -/

/-- The cell function reads row p of the row-indexed blocks and the other blocks whole; so if row p of those blocks is
    row b of the arrays and the other blocks are the arrays, the block's cell at (p, q) is the array's cell at (b, q). -/
theorem blockCell_eq_arrayCell
    (x0 : Vec Ideal S2048x256 .f32) (x1 : Vec Ideal S4x2048x256 .f32) (x2 : Vec Ideal S4x2048 .i32)
    (x3 : Vec Ideal S4x2048 .i32) (x4 : Vec Ideal S256x768 .bf16) (x5 : Vec Ideal S4x256x768 .bf16)
    (x6 : Vec Ideal S5x768 .f32) (x7 : Vec Ideal S128x256 .bf16)
    (A0 : S32768x256.Idx → EReal) (A1 : S4x32768x256.Idx → EReal) (A2 A3 : S4x32768.Idx → BitVec 32)
    (A4 : S256x768.Idx → EReal) (A5 : S4x256x768.Idx → EReal) (A6 : S5x768.Idx → EReal) (A7 : S128x256.Idx → EReal)
    (p : Fin 2048) (b : Fin 32768) (q : Fin 256)
    (h0 : ∀ d : Fin 256, x0 (ix2 p d) = A0 (ix2 b d))
    (h1 : ∀ (k : Fin 4) (u : Fin 256), x1 (ix3 k p u) = A1 (ix3 k b u))
    (h2 : ∀ k : Fin 4, x2 (ix2 k p) = A2 (ix2 k b))
    (h3 : ∀ k : Fin 4, x3 (ix2 k p) = A3 (ix2 k b))
    (h4 : ∀ (d : Fin 256) (v : Fin 768), x4 (ix2 d v) = A4 (ix2 d v))
    (h5 : ∀ (k : Fin 4) (u : Fin 256) (v : Fin 768), x5 (ix3 k u v) = A5 (ix3 k u v))
    (h6 : ∀ (j : Fin 5) (v : Fin 768), x6 (ix2 j v) = A6 (ix2 j v))
    (h7 : ∀ (e : Fin 128) (u : Fin 256), x7 (ix2 e u) = A7 (ix2 e u)) :
    blockCell x0 x1 x2 x3 x4 x5 x6 x7 p q = arrayCell A0 A1 A2 A3 A4 A5 A6 A7 b q := by
  unfold blockCell arrayCell
  simp only [h0, h1, h2, h3, h4, h5, h6, h7]

/-- The same with the statement about one block in front: element (p, q) of what the body leaves. -/
theorem out_eq_arrayCell (hcell : CellStmt)
    (x0 : Vec Ideal S2048x256 .f32) (x1 : Vec Ideal S4x2048x256 .f32) (x2 : Vec Ideal S4x2048 .i32)
    (x3 : Vec Ideal S4x2048 .i32) (x4 : Vec Ideal S256x768 .bf16) (x5 : Vec Ideal S4x256x768 .bf16)
    (x6 : Vec Ideal S5x768 .f32) (x7 : Vec Ideal S128x256 .bf16)
    (A0 : S32768x256.Idx → EReal) (A1 : S4x32768x256.Idx → EReal) (A2 A3 : S4x32768.Idx → BitVec 32)
    (A4 : S256x768.Idx → EReal) (A5 : S4x256x768.Idx → EReal) (A6 : S5x768.Idx → EReal) (A7 : S128x256.Idx → EReal)
    (p : Fin 2048) (b : Fin 32768) (q : Fin 256)
    (h0 : ∀ d : Fin 256, x0 (ix2 p d) = A0 (ix2 b d))
    (h1 : ∀ (k : Fin 4) (u : Fin 256), x1 (ix3 k p u) = A1 (ix3 k b u))
    (h2 : ∀ k : Fin 4, x2 (ix2 k p) = A2 (ix2 k b))
    (h3 : ∀ k : Fin 4, x3 (ix2 k p) = A3 (ix2 k b))
    (h4 : ∀ (d : Fin 256) (v : Fin 768), x4 (ix2 d v) = A4 (ix2 d v))
    (h5 : ∀ (k : Fin 4) (u : Fin 256) (v : Fin 768), x5 (ix3 k u v) = A5 (ix3 k u v))
    (h6 : ∀ (j : Fin 5) (v : Fin 768), x6 (ix2 j v) = A6 (ix2 j v))
    (h7 : ∀ (e : Fin 128) (u : Fin 256), x7 (ix2 e u) = A7 (ix2 e u)) :
    out0_8 (F := Ideal) x0 x1 x2 x3 x4 x5 x6 x7 (ix2 p q) = arrayCell A0 A1 A2 A3 A4 A5 A6 A7 b q :=
  (hcell x0 x1 x2 x3 x4 x5 x6 x7 p q).trans
    (blockCell_eq_arrayCell x0 x1 x2 x3 x4 x5 x6 x7 A0 A1 A2 A3 A4 A5 A6 A7 p b q h0 h1 h2 h3 h4 h5 h6 h7)

/-! ## What a point writes back -/

/-- Each input block at point t, read at an element, is its array at the element's place. -/
theorem read_rows (c : Dev nD) (t : Fin cfg0.N) (p : Fin 2048) (d : Fin 256) (b : Fin 32768) (hb : b.val = 2048 * t.val + p.val) :
    (iblk m c 0 t : Vec Ideal S2048x256 .f32) (ix2 p d) = (V m c main_arg0 : S32768x256.Idx → EReal) (ix2 b d) := by
  show V m c main_arg0 (((cfg0.win 0).blk t).view.emb (ix2 p d)) = V m c main_arg0 (ix2 b d)
  rw [emb_rows t p d b hb]

theorem read_states (c : Dev nD) (t : Fin cfg0.N) (k : Fin 4) (p : Fin 2048) (u : Fin 256) (b : Fin 32768) (hb : b.val = 2048 * t.val + p.val) :
    (iblk m c 1 t : Vec Ideal S4x2048x256 .f32) (ix3 k p u) = (V m c main_arg1 : S4x32768x256.Idx → EReal) (ix3 k b u) := by
  show V m c main_arg1 (((cfg0.win 1).blk t).view.emb (ix3 k p u)) = V m c main_arg1 (ix3 k b u)
  rw [emb_states t k p u b hb]

theorem read_words (c : Dev nD) (t : Fin cfg0.N) (k : Fin 4) (p : Fin 2048) (b : Fin 32768) (hb : b.val = 2048 * t.val + p.val) :
    (iblk m c 2 t : Vec Ideal S4x2048 .i32) (ix2 k p) = (V m c main_v6 : S4x32768.Idx → BitVec 32) (ix2 k b) := by
  show V m c main_v6 (((cfg0.win 2).blk t).view.emb (ix2 k p)) = V m c main_v6 (ix2 k b)
  rw [emb_words t k p b hb]

theorem read_masks (c : Dev nD) (t : Fin cfg0.N) (k : Fin 4) (p : Fin 2048) (b : Fin 32768) (hb : b.val = 2048 * t.val + p.val) :
    (iblk m c 3 t : Vec Ideal S4x2048 .i32) (ix2 k p) = (V m c main_v8 : S4x32768.Idx → BitVec 32) (ix2 k b) := by
  show V m c main_v8 (((cfg0.win 3).blk t).view.emb (ix2 k p)) = V m c main_v8 (ix2 k b)
  rw [emb_masks t k p b hb]

theorem read_w (c : Dev nD) (t : Fin cfg0.N) (d : Fin 256) (v : Fin 768) :
    (iblk m c 4 t : Vec Ideal S256x768 .bf16) (ix2 d v) = (V m c main_v4 : S256x768.Idx → EReal) (ix2 d v) := by
  show V m c main_v4 (((cfg0.win 4).blk t).view.emb (ix2 d v)) = V m c main_v4 (ix2 d v)
  rw [emb_w t d v]

theorem read_r (c : Dev nD) (t : Fin cfg0.N) (k : Fin 4) (u : Fin 256) (v : Fin 768) :
    (iblk m c 5 t : Vec Ideal S4x256x768 .bf16) (ix3 k u v) = (V m c main_v5 : S4x256x768.Idx → EReal) (ix3 k u v) := by
  show V m c main_v5 (((cfg0.win 5).blk t).view.emb (ix3 k u v)) = V m c main_v5 (ix3 k u v)
  rw [emb_r t k u v]

theorem read_b (c : Dev nD) (t : Fin cfg0.N) (j : Fin 5) (v : Fin 768) :
    (iblk m c 6 t : Vec Ideal S5x768 .f32) (ix2 j v) = (V m c main_arg6 : S5x768.Idx → EReal) (ix2 j v) := by
  show V m c main_arg6 (((cfg0.win 6).blk t).view.emb (ix2 j v)) = V m c main_arg6 (ix2 j v)
  rw [emb_b t j v]

theorem read_tbl (c : Dev nD) (t : Fin cfg0.N) (e : Fin 128) (u : Fin 256) :
    (iblk m c 7 t : Vec Ideal S128x256 .bf16) (ix2 e u) = (V m c main_v3 : S128x256.Idx → EReal) (ix2 e u) := by
  show V m c main_v3 (((cfg0.win 7).blk t).view.emb (ix2 e u)) = V m c main_v3 (ix2 e u)
  rw [emb_tbl t e u]

/-- WHAT POINT t WRITES BACK is block t of G of the staged arrays. -/
theorem flushed_eq (hcell : CellStmt) (c : Dev nD) (t : Fin cfg0.N) :
    (dats m 0 c).flushed 8 t = ((cfg0.win 8).blk t).view.read (Elt Ideal) (G m c) := by
  rw [Value.flushed8]
  funext y
  obtain ⟨p, q, rfl⟩ : ∃ (p : Fin 2048) (q : Fin 256), y = ix2 p q := ⟨y 0, y 1, eq_ix2 y⟩
  obtain ⟨ht, -, -⟩ := idx_out t
  have hlt : 2048 * t.val + p.val < 32768 := by have := p.isLt; omega
  show out0_8 (iblk m c 0 t) (iblk m c 1 t) (iblk m c 2 t) (iblk m c 3 t) (iblk m c 4 t) (iblk m c 5 t) (iblk m c 6 t) (iblk m c 7 t) (ix2 p q)
    = G m c (((cfg0.win 8).blk t).view.emb (ix2 p q))
  rw [emb_out t p q ⟨2048 * t.val + p.val, hlt⟩ rfl]
  show _ = arrayCell (V m c main_arg0) (V m c main_arg1) (V m c main_v6) (V m c main_v8) (V m c main_v4) (V m c main_v5) (V m c main_arg6) (V m c main_v3) ⟨2048 * t.val + p.val, hlt⟩ q
  exact out_eq_arrayCell hcell _ _ _ _ _ _ _ _ _ _ _ _ _ _ _ _ p ⟨2048 * t.val + p.val, hlt⟩ q
    (fun d => read_rows m c t p d _ rfl) (fun k u => read_states m c t k p u _ rfl)
    (fun k => read_words m c t k p _ rfl) (fun k => read_masks m c t k p _ rfl)
    (fun d v => read_w m c t d v) (fun k u v => read_r m c t k u v)
    (fun j v => read_b m c t j v) (fun e u => read_tbl m c t e u)

/-! ## The cover, and the array after the run -/

/-- An index of the array is in point t's block iff each coordinate is in the block's range on its axis. -/
theorem mem_blk (t : Fin cfg0.N) (i : S32768x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v9).slice (win0_8.rect t)).set ↔ _
  rw [View.set_slice_whole, Rect.mem_set_unit]
  exact Iff.rfl

/-- Every index of the output array is in some point's block: row r is in the block of point r / 2048. -/
theorem cover (i : S32768x256.Idx) :
    ∃ t : Fin cfg0.N, (cfg0.win 8).flush t = true ∧ i ∈ ((cfg0.win 8).blk t).view.set := by
  have hi0 : (i 0).val < 32768 := (i 0).isLt
  have hi1 : (i 1).val < 256 := (i 1).isLt
  obtain ⟨t, e0, e1⟩ := idx_onto ⟨(i 0).val / 2048, by omega⟩
  have e0' : win0_8.index t (0 : Fin 2) = (i 0).val / 2048 := e0
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 256 ≤ (i 1).val ∧ (i 1).val < win0_8.index t (1 : Fin 2) * 256 + 256; omega

/-- THE ARRAY after the run is G of the staged arrays. -/
theorem final (hcell : CellStmt) (c : Dev nD) : (dats m 0 c).arrAt 8 cfg0.N = G m c :=
  (dats m 0 c).arrAt_eq_of_cover 8 (G m c) (fun t _ => flushed_eq m hcell c t) cover

/-! ## The run, read -/

/-- The run re-posted: the output array at its function of the staged arrays, the arguments unchanged. -/
theorem run (hcell : CellStmt) : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m hcell c), (h c).2⟩) (Value.run_blocks m ρ)

end Cert.KernelIdeal.KFinal

end
-- ==== Proof.HostReads.lean ====
/-
  What the arrays staged for the kernel region hold when the region is entered, in terms of the program's arguments.

  Before the region the program pads the 40-row table to 128 rows (the table written as one window at row 0 into
  an array of zeros), changes the float format of the padded table and of the two weight arrays (the identity on the
  extended reals), transposes the index words, and widens the mask bits to words and transposes them.

  The padding is a scatter whose body returns the update: a left fold over the update indices, each replacing the
  element it lands on. Read at one element, such a fold is decided by which updates land there: if none does, the
  element keeps the operand's value; if the updates landing there all carry one value, the element ends at it. For
  the padding the update at (r, q) lands at (0 + r, q), so distinct updates land on distinct elements, the element
  (e, u) with e < 40 is reached by the update at (e, u) alone, and a row e >= 40 is reached by none.
-/
import proofs.«415521_j60309930770883_3_alg».proof.Proof.Gen.KernelIdeal.Frame
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostReads

open Cert.KernelIdeal Cert.KernelIdeal.Gen Idealize.ShloMosaic Idealize.ShloMosaic.TcCoe Idealize.SL.Sem
  Idealize.ShloMosaic.ValueIdx

/-! ## A left fold of functions, read at one argument -/

section Fold
variable {β ι α : Type}

/-- If the function holds `y` at `i` and every step of the fold keeps it so, the fold's result holds `y` at `i`. -/
theorem foldl_keep (step : (ι → α) → β → (ι → α)) (i : ι) (y : α) :
    ∀ (l : List β) (x : ι → α), (∀ r n, n ∈ l → r i = y → step r n i = y) → x i = y → l.foldl step x i = y
  | [], _, _, hx => hx
  | a :: l, x, hs, hx => by
    rw [List.foldl_cons]
    exact foldl_keep step i y l (step x a) (fun r n hn => hs r n (List.mem_cons_of_mem _ hn))
      (hs x a List.mem_cons_self hx)

/-- If some step of the list sets the value at `i` to `y` whatever was there, and every step keeps `y` at `i` once it is
    there, the fold's result holds `y` at `i`. -/
theorem foldl_hit (step : (ι → α) → β → (ι → α)) (i : ι) (y : α) (n0 : β) (hhit : ∀ r, step r n0 i = y) :
    ∀ (l : List β) (x : ι → α), n0 ∈ l → (∀ r n, n ∈ l → r i = y → step r n i = y) → l.foldl step x i = y
  | [], _, h, _ => absurd h List.not_mem_nil
  | a :: l, x, h, hs => by
    rw [List.foldl_cons]
    rcases List.mem_cons.1 h with rfl | h'
    · exact foldl_keep step i y l _ (fun r n hn => hs r n (List.mem_cons_of_mem _ hn)) (hhit x)
    · exact foldl_hit step i y n0 hhit l _ h' (fun r n hn => hs r n (List.mem_cons_of_mem _ hn))
end Fold

/-! ## A scatter whose body returns the update, read at one element -/

section Scatter
variable {α : Type} {s si u : Shape} {w : Nat} (d : ScatterDims s si u) (x : s.Idx → α) (idx : IVec si w) (upd : u.Idx → α)

/-- An element some update lands on, every update landing there carrying the same value, ends at that value. -/
theorem scatter_set_of_hit (i : s.Idx) (j0 : u.Idx) (h0 : d.resultIdx? j0 idx = some i)
    (huniq : ∀ j, d.resultIdx? j idx = some i → upd j = upd j0) :
    Host.scatter d (fun _ b => b) x idx upd i = upd j0 := by
  unfold Host.scatter
  refine foldl_hit _ i (upd j0) (u.rowMajor j0) ?_ _ x (List.mem_finRange _) ?_
  · intro r
    simp only [Equiv.symm_apply_apply, h0, if_true]
  · intro r n _ hr
    generalize hg : d.resultIdx? (u.rowMajor.symm n) idx = o
    cases o with
    | none => exact hr
    | some i' =>
      show (if i = i' then upd (u.rowMajor.symm n) else r i) = upd j0
      by_cases e : i = i'
      · rw [if_pos e]; exact huniq _ (e ▸ hg)
      · rw [if_neg e]; exact hr

/-- An element no update lands on keeps the operand's value. -/
theorem scatter_set_of_miss (i : s.Idx) (hmiss : ∀ j, d.resultIdx? j idx ≠ some i) :
    Host.scatter d (fun _ b => b) x idx upd i = x i := by
  unfold Host.scatter
  refine foldl_keep _ i (x i) _ x ?_ rfl
  intro r n _ hr
  generalize hg : d.resultIdx? (u.rowMajor.symm n) idx = o
  cases o with
  | none => exact hr
  | some i' =>
    show (if i = i' then upd (u.rowMajor.symm n) else r i) = x i
    by_cases e : i = i'
    · exact absurd (e ▸ hg) (hmiss _)
    · rw [if_neg e]; exact hr
end Scatter

/-! ## The padding's scatter: the table as one window at row 0 -/

section Table

/-- The scatter index of the padding: one start row, zero. -/
abbrev idx0 : IVec S1 32 := broadcastInDim S1 ![] bcast_S_S1 (constantI S_ 32 0#32)

/-- The window starts at 0 on both axes: row 0 is the index word, the column axis is not indexed. -/
theorem start_eq (j : S40x256.Idx) (a : Fin 2) :
    scatter_S128x256_S1_S40x256_01_n_0_0.start j idx0 a = 0 := by
  match a with
  | ⟨0, _⟩ =>
    show scatter_S128x256_S1_S40x256_01_n_0_0.start j idx0 (0 : Fin 2) = 0
    unfold ScatterDims.start; rw [dif_pos (by decide)]; rfl
  | ⟨1, _⟩ =>
    show scatter_S128x256_S1_S40x256_01_n_0_0.start j idx0 (1 : Fin 2) = 0
    unfold ScatterDims.start; rw [dif_neg (by decide)]

/-- Both axes of the update are window axes: the window coordinate on an axis is the update's coordinate there. -/
theorem window_eq (j : S40x256.Idx) (a : Fin 2) :
    scatter_S128x256_S1_S40x256_01_n_0_0.window j a = (j a).val := by
  match a with
  | ⟨0, _⟩ =>
    show scatter_S128x256_S1_S40x256_01_n_0_0.window j (0 : Fin 2) = (j 0).val
    unfold ScatterDims.window; rw [dif_pos (by decide)]; rfl
  | ⟨1, _⟩ =>
    show scatter_S128x256_S1_S40x256_01_n_0_0.window j (1 : Fin 2) = (j 1).val
    unfold ScatterDims.window; rw [dif_pos (by decide)]; rfl

/-- The update at (r, q) lands at (r, q): inside the 128 x 256 array since r < 40. -/
theorem resultIdx_eq (j : S40x256.Idx) :
    scatter_S128x256_S1_S40x256_01_n_0_0.resultIdx? j idx0
      = some (ix2 (⟨(j 0).val, Nat.lt_of_lt_of_le (idx2_lt0 j) (by decide)⟩ : Fin 128) (⟨(j 1).val, idx2_lt1 j⟩ : Fin 256)) := by
  have hcond : ∀ a : Fin S128x256.rank,
      0 ≤ scatter_S128x256_S1_S40x256_01_n_0_0.start j idx0 a + scatter_S128x256_S1_S40x256_01_n_0_0.window j a
      ∧ scatter_S128x256_S1_S40x256_01_n_0_0.start j idx0 a + scatter_S128x256_S1_S40x256_01_n_0_0.window j a < S128x256.size a := by
    intro a
    rw [start_eq, window_eq]
    match a with
    | ⟨0, _⟩ => have := idx2_lt0 j; refine ⟨by omega, ?_⟩; show (0 : Int) + ((j 0).val : Int) < ((128 : Nat) : Int); omega
    | ⟨1, _⟩ => have := idx2_lt1 j; refine ⟨by omega, ?_⟩; show (0 : Int) + ((j 1).val : Int) < ((256 : Nat) : Int); omega
  unfold ScatterDims.resultIdx?
  rw [dif_pos hcond]
  refine congrArg some (funext fun a => Fin.ext ?_)
  show (scatter_S128x256_S1_S40x256_01_n_0_0.start j idx0 a + scatter_S128x256_S1_S40x256_01_n_0_0.window j a).toNat = _
  rw [start_eq, window_eq, Int.zero_add, Int.toNat_natCast]
  match a with
  | ⟨0, _⟩ => rfl
  | ⟨1, _⟩ => rfl

end Table

/-! ## The staged arrays -/

variable (m : (ℓ : Loc nD τ sig) → Buf (Elt Ideal) ℓ) (c : Dev nD)

/-- The padded table: rows below 40 are the table's rows, the rest are zero (the format change is the identity). -/
theorem V_emb (e : Fin 128) (u : Fin 256) :
    (V m c main_v3 : S128x256.Idx → EReal) (ix2 e u)
      = if h : e.val < 40 then (m ((c : Thread nD τ).loc main_arg7) : S40x256.Idx → EReal) (ix2 ⟨e.val, h⟩ u) else (0 : EReal) := by
  have e3 : (V m c main_v3 : S128x256.Idx → EReal)
      = (truncf .bf16
          (Host.scatter scatter_S128x256_S1_S40x256_01_n_0_0 (fun _ b => b)
            (broadcastInDim S128x256 ![] bcast_S_S128x256 (constant (F := Ideal) S_ .f32 0x00000000#32) : FVec Ideal S128x256 .f32)
            idx0 (m ((c : Thread nD τ).loc main_arg7) : FVec Ideal S40x256 .f32) : FVec Ideal S128x256 .f32)
          bitsLt_bf16_f32 : FVec Ideal S128x256 .bf16) := by
    dsimp only [Gen.V, Gen.hostOps0]; after_results
  rw [e3, truncf_apply]
  by_cases h : e.val < 40
  · -- the update at (e, u) lands at (e, u), and it is the only one that does
    rw [dif_pos h]
    refine scatter_set_of_hit _ _ _ _ (ix2 e u) (ix2 ⟨e.val, h⟩ u) ?_ ?_
    · rw [resultIdx_eq]
    · intro j hj
      rw [resultIdx_eq] at hj
      have h2 := Option.some.inj hj
      have h0 : (j 0).val = e.val := congrArg Fin.val (congrFun h2 0)
      have h1 : (j 1).val = u.val := congrArg Fin.val (congrFun h2 1)
      refine congrArg _ (funext fun a => ?_)
      match a with
      | ⟨0, _⟩ => exact Fin.ext h0
      | ⟨1, _⟩ => exact Fin.ext h1
  · -- every update lands on a row below 40: the element keeps the zero it had
    rw [dif_neg h, scatter_set_of_miss]
    · exact Ideal.ofBits_zero_f32
    · intro j hj
      rw [resultIdx_eq] at hj
      have h0 : (j 0).val = e.val := congrArg Fin.val (congrFun (Option.some.inj hj) 0)
      have := idx2_lt0 j
      omega

/-- The first weight array staged for the region is the argument: the format change is the identity. -/
theorem V_W : (V m c main_v4 : S256x768.Idx → EReal) = m ((c : Thread nD τ).loc main_arg4) := by
  have e : (V m c main_v4 : S256x768.Idx → EReal)
      = (truncf .bf16 (m ((c : Thread nD τ).loc main_arg4) : FVec Ideal S256x768 .f32) bitsLt_bf16_f32
          : FVec Ideal S256x768 .bf16) := by
    dsimp only [Gen.V, Gen.hostOps0]; after_results
  rw [e]; rfl

/-- The stack of recurrent weight arrays staged for the region is the argument. -/
theorem V_R : (V m c main_v5 : S4x256x768.Idx → EReal) = m ((c : Thread nD τ).loc main_arg5) := by
  have e : (V m c main_v5 : S4x256x768.Idx → EReal)
      = (truncf .bf16 (m ((c : Thread nD τ).loc main_arg5) : FVec Ideal S4x256x768 .f32) bitsLt_bf16_f32
          : FVec Ideal S4x256x768 .bf16) := by
    dsimp only [Gen.V, Gen.hostOps0]; after_results
  rw [e]; rfl

/-- The staged index words are the argument's, transposed. -/
theorem V_et (k : Fin 4) (b : Fin 32768) :
    (V m c main_v6 : S4x32768.Idx → BitVec 32) (ix2 k b)
      = (m ((c : Thread nD τ).loc main_arg2) : S32768x4.Idx → BitVec 32) (ix2 b k) := by
  have e : (V m c main_v6 : S4x32768.Idx → BitVec 32)
      = transpose S4x32768 [1, 0] (m ((c : Thread nD τ).loc main_arg2) : S32768x4.Idx → BitVec 32)
          transposes_S32768x4_S4x32768_1_0 := by
    dsimp only [Gen.V, Gen.hostOps0]; after_results
  rw [e]; exact transpose_ix2_apply _ _ k b

/-- The staged mask words are the argument's bits, widened to words and transposed. -/
theorem V_mask (k : Fin 4) (b : Fin 32768) :
    (V m c main_v8 : S4x32768.Idx → BitVec 32) (ix2 k b)
      = ((m ((c : Thread nD τ).loc main_arg3) : S32768x4.Idx → BitVec 1) (ix2 b k)).setWidth 32 := by
  have e : (V m c main_v8 : S4x32768.Idx → BitVec 32)
      = transpose S4x32768 [1, 0]
          (extui 32 (m ((c : Thread nD τ).loc main_arg3) : S32768x4.Idx → BitVec 1) natLt_1_32)
          transposes_S32768x4_S4x32768_1_0 := by
    dsimp only [Gen.V, Gen.hostOps0]; after_results
  rw [e, transpose_ix2_apply]; rfl

end Cert.KernelIdeal.HostReads

end
-- ==== Proof.LibMask.lean ====
/-
  General facts about index masks on integer vectors, generic in the shapes.

  A "take" that tolerates negative indices first wraps them (an index below zero has the table's length added) and
  afterwards masks every row whose wrapped index falls outside [0, M]: the mask is the conjunction, reduced by "and"
  over the index column, of the two signed compares, and a masked-out row is replaced by a fill value. When every index
  is already inside the range, the wrap is the identity, both compares hold at every position, the reduction of an
  all-ones vector from the initial value one is all ones, and a select under an all-ones condition returns its first
  branch. This file states each of those steps on its own, and, in the other direction, reads a range fact back out of
  a conjunction "all (x ≥ k)" or "all (x < k)" that is known to be one.
-/
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

/-! ## Constants and their broadcasts -/

/-- An integer splat reads its value at every index. -/
theorem constantI_apply {S : Shape} {w : Nat} (k : BitVec w) (i : S.Idx) : constantI S w k i = k := rfl

/-- A broadcast (along any axes) of a vector that is constantly `v` is constantly `v`. -/
theorem broadcastInDim_const {s t : Shape} {α : Type} (dims : Fin s.rank → Fin t.rank) (h : s.BroadcastsInDim t dims)
    (v : α) : broadcastInDim t dims h (fun _ : s.Idx => v) = fun _ => v := rfl

/-- The same with the constancy as a hypothesis: if `x` reads `v` everywhere, so does any broadcast of `x`. -/
theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

/-- A broadcast of an integer splat reads the splat's value at every index, whatever the axes. -/
theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

/-! ## The wrap of negative indices -/

/-- Wrapping negative indices leaves a vector of nonnegative indices as it is: "index below zero" fails at every
    position, so the select returns its second branch everywhere. -/
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

/-! ## The range mask -/

/-- Both range compares hold at every position of a vector whose entries lie in [0, M]: their conjunction is all ones. -/
theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

/-- A left fold by "and" that starts at one and meets only ones ends at one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

/-- A reduction by "and" of an all-ones vector, from an initial value that is one, is all ones, over whatever axes. -/
theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

/-- The same for the literal all-ones operand and initial value. -/
theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

/-! ## Select under a settled condition -/

/-- A select whose condition is all ones returns its first branch (values of any type: words or floats). -/
theorem select_ones {S : Shape} {α : Type} (a b : S.Idx → α) : select (fun _ => 1#1) a b = a := by
  funext i
  show Scalar.select 1#1 (a i) (b i) = a i
  unfold Scalar.select
  exact if_pos rfl

/-- The same with the condition's value as a hypothesis. -/
theorem select_of_ones {S : Shape} {α : Type} (c : IVec S 1) (a b : S.Idx → α) (hc : ∀ i, c i = 1#1) :
    select c a b = a := by
  have : c = fun _ => 1#1 := funext hc
  rw [this]; exact select_ones a b

/-! ## A printed "all" read back -/

/-- "all (x ≥ c)" with `c` constantly `k`: if the reduction by "and" into a one-index result is one, every entry of `x`
    is at least `k`, read signed. -/
theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

/-- "all (x < c)" with `c` constantly `k`: if the reduction by "and" into a one-index result is one, every entry of `x`
    is below `k`, read signed. -/
theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

/-- A conjunction of two one-bit vectors that is one at an index has both conjuncts one there. -/
theorem andi_apply_eq_one {S : Shape} (x y : IVec S 1) (j : S.Idx) (e : andi x y j = 1#1) : x j = 1#1 ∧ y j = 1#1 :=
  IntOp.andi_eq_one.1 e

end Cert.MaskLib
-- ==== Proof.RefCell.lean ====
/-
  The reference computation read at one output element.

  The reference forms the input projection x = inputs W + b_0 for the whole batch, looks the embedding row of every
  (batch row, edge type) pair up in the table (an index below zero first has the table's length added, and the start
  index is then clamped into the table), replaces the row of a masked-out edge by ones, multiplies the states by it,
  forms the recurrent projections rc_k = s_k R_k + b_(k+1), the two gates through 1 / (1 + exp (-t)), selects the three
  products by the mask bit, sums each over the four edge types from zero, and closes with
  (1 - accZ / 4) * tanh (x_h + accH / 4) + accZH / 4. Read at batch row b and column q this is the specification's
  cell in its "selector" spelling, with the table row of edge type k the row named by the index word at (b, k); when
  every index word is nonnegative the wrap of negative indices changes nothing.
-/
import proofs.«415521_j60309930770883_3_alg».proof.Proof.Gen.ReferenceIdeal.Read
import proofs.«415521_j60309930770883_3_alg».proof.Proof.Spec
import proofs.«415521_j60309930770883_3_alg».proof.Proof.LibMask

noncomputable section

open scoped BigOperators

namespace Cert.RefCell
open Cert.ReferenceIdeal Cert.ReferenceIdeal.Gen Cert.ReferenceIdeal.Read Idealize.ShloMosaic Idealize.ShloMosaic.ValueIdx
open Cert.GruSpec

/-! ## The gather of table rows, read at an index

Result element (b, k, u) is the table at row "start index word at (b, k, 0), read signed and clamped into [0, 39]" and
column u: axis 0 of the table is collapsed and indexed by the start index, axis 1 is the offset axis. -/

section Gather
variable {α : Type}

/-- Axis 0 of the operand index: the clamped start index (no batching axis, and a collapsed axis has no offset). -/
theorem gather_axis0 (idx : IVec S32768x4x1 32) (b : Fin 32768) (k : Fin 4) (u : Fin 256) :
    (gather_S40x256_S32768x4x1_S32768x4x256_2_0_n_n_0_2_1256.operandIdx (ix3 b k u) idx 0).val = min (idx (ix3 b k 0)).toInt.toNat 39 := by
  show gather_S40x256_S32768x4x1_S32768x4x256_2_0_n_n_0_2_1256.start (ix3 b k u) idx 0 + gather_S40x256_S32768x4x1_S32768x4x256_2_0_n_n_0_2_1256.batchCoord (ix3 b k u) 0 + gather_S40x256_S32768x4x1_S32768x4x256_2_0_n_n_0_2_1256.offCoord (ix3 b k u) 0 = _
  rw [GatherDims.batchCoord_eq_zero gather_S40x256_S32768x4x1_S32768x4x256_2_0_n_n_0_2_1256 (ix3 b k u) 0 (by decide),
    GatherDims.offCoord_eq_zero gather_S40x256_S32768x4x1_S32768x4x256_2_0_n_n_0_2_1256 (ix3 b k u) 0 (by decide)]
  simp only [Nat.add_zero]
  unfold GatherDims.start
  rw [dif_pos (show (0 : Fin S40x256.rank) ∈ gather_S40x256_S32768x4x1_S32768x4x256_2_0_n_n_0_2_1256.startIndexMap by decide)]
  have hsi : gather_S40x256_S32768x4x1_S32768x4x256_2_0_n_n_0_2_1256.siIdx (ix3 b k u) ⟨List.idxOf (0 : Fin S40x256.rank) gather_S40x256_S32768x4x1_S32768x4x256_2_0_n_n_0_2_1256.startIndexMap,
      List.idxOf_lt_length_iff.2 (show (0 : Fin S40x256.rank) ∈ gather_S40x256_S32768x4x1_S32768x4x256_2_0_n_n_0_2_1256.startIndexMap by decide)⟩ = ix3 b k 0 := by
    funext c; refine Fin.ext ?_
    match c with
    | ⟨0, _⟩ => rfl
    | ⟨1, _⟩ => rfl
    | ⟨2, _⟩ => rfl
  rw [hsi]
  rfl

/-- Axis 1 of the operand index: the result's offset coordinate (the start index map does not name this axis). -/
theorem gather_axis1 (idx : IVec S32768x4x1 32) (b : Fin 32768) (k : Fin 4) (u : Fin 256) :
    (gather_S40x256_S32768x4x1_S32768x4x256_2_0_n_n_0_2_1256.operandIdx (ix3 b k u) idx 1).val = u.val := by
  show gather_S40x256_S32768x4x1_S32768x4x256_2_0_n_n_0_2_1256.start (ix3 b k u) idx 1 + gather_S40x256_S32768x4x1_S32768x4x256_2_0_n_n_0_2_1256.batchCoord (ix3 b k u) 1 + gather_S40x256_S32768x4x1_S32768x4x256_2_0_n_n_0_2_1256.offCoord (ix3 b k u) 1 = _
  rw [GatherDims.batchCoord_eq_zero gather_S40x256_S32768x4x1_S32768x4x256_2_0_n_n_0_2_1256 (ix3 b k u) 1 (by decide)]
  unfold GatherDims.start
  rw [dif_neg (show ¬ (1 : Fin S40x256.rank) ∈ gather_S40x256_S32768x4x1_S32768x4x256_2_0_n_n_0_2_1256.startIndexMap by decide)]
  unfold GatherDims.offCoord
  rw [dif_pos (show (1 : Fin S40x256.rank) ∈ gather_S40x256_S32768x4x1_S32768x4x256_2_0_n_n_0_2_1256.sKept by decide)]
  simp only [Nat.add_zero, Nat.zero_add]
  rfl

/-- The gather at result index (b, k, u): the table at the row the start index word at (b, k) names once it is read
    signed and clamped into [0, 39], column u. -/
theorem gather_read (x : S40x256.Idx → α) (idx : IVec S32768x4x1 32) (b : Fin 32768) (k : Fin 4) (u : Fin 256) :
    Host.gather gather_S40x256_S32768x4x1_S32768x4x256_2_0_n_n_0_2_1256 x idx (ix3 b k u) = x (ix2 (rowOf (idx (ix3 b k 0))) u) := by
  unfold Host.gather
  congr 1
  funext a
  refine Fin.ext ?_
  match a with
  | ⟨0, _⟩ => exact gather_axis0 idx b k u
  | ⟨1, _⟩ => exact gather_axis1 idx b k u

end Gather

section Read
variable (a0 : (⟨S32768x256, .f32⟩ : BufTy).Contents (Elt Ideal)) (a1 : (⟨S4x32768x256, .f32⟩ : BufTy).Contents (Elt Ideal)) (a2 : (⟨S32768x4, .i32⟩ : BufTy).Contents (Elt Ideal)) (a3 : (⟨S32768x4, .i1⟩ : BufTy).Contents (Elt Ideal)) (a4 : (⟨S256x768, .f32⟩ : BufTy).Contents (Elt Ideal)) (a5 : (⟨S4x256x768, .f32⟩ : BufTy).Contents (Elt Ideal)) (a6 : (⟨S5x768, .f32⟩ : BufTy).Contents (Elt Ideal)) (a7 : (⟨S40x256, .f32⟩ : BufTy).Contents (Elt Ideal))

/-! ## The arguments of the specification's cell, from the arrays -/

/-- The embedding row of edge type k of batch row b: the table row its index word names. -/
abbrev emF (b : Fin 32768) : Fin 4 → Fin 256 → EReal := fun k u' => a7 (ix2 (rowOf (a2 (ix2 b k))) u')
/-- The state row of edge type k of batch row b. -/
abbrev stF (b : Fin 32768) : Fin 4 → Fin 256 → EReal := fun k u' => a1 (ix3 k b u')
/-- The recurrent weights of edge type k. -/
abbrev RF : Fin 4 → Fin 256 → Fin 768 → EReal := fun k u' v => a5 (ix3 k u' v)
/-- The bias rows. -/
abbrev bsF : Fin 5 → Fin 768 → EReal := fun j v => a6 (ix2 j v)
/-- The input row of batch row b. -/
abbrev xinF (b : Fin 32768) : Fin 256 → EReal := fun d => a0 (ix2 b d)
/-- The input weights. -/
abbrev WF : Fin 256 → Fin 768 → EReal := fun d v => a4 (ix2 d v)
/-- The mask bits of batch row b. -/
abbrev mbF (b : Fin 32768) : Fin 4 → BitVec 1 := fun k => a3 (ix2 b k)

/-! ## The input projection -/

theorem lidx0 (b : Fin 32768) (v : Fin 768) (d : Fin 256) : lidx_main_v0 (ix2 b v) d = ix2 b d :=
  funext fun a => Fin.ext (by match a with | ⟨0, _⟩ => rfl | ⟨1, _⟩ => rfl)
theorem ridx0 (b : Fin 32768) (v : Fin 768) (d : Fin 256) : ridx_main_v0 (ix2 b v) d = ix2 d v :=
  funext fun a => Fin.ext (by match a with | ⟨0, _⟩ => rfl | ⟨1, _⟩ => rfl)
theorem idx4 (b : Fin 32768) (v : Fin 768) :
    idx_main_v1 (idx_main_v2 (idx_main_v3 (idx_main_v4 (ix2 b v)))) = ix2 (0 : Fin 5) v :=
  funext fun a => Fin.ext (by
    match a with
    | ⟨0, _⟩ => rfl
    | ⟨1, _⟩ => exact Nat.mod_eq_of_lt v.isLt)

/-- The input projection at (b, v): row b of the input times the input weights, plus bias row 0. -/
theorem x_read (b : Fin 32768) (v : Fin 768) :
    val_main_v5 (F := Ideal) a0 a4 a6 (ix2 b v) = recur (xinF a0 b) (WF a4) (bsF a6 0) v := by
  rw [val_main_v5_apply, val_main_v0_apply, val_main_v4_apply, val_main_v3_apply, val_main_v2_apply, val_main_v1_apply, idx4]
  simp only [lidx0, ridx0]
  rfl

/-! ## The mask bit and the fill constants of the selects -/

theorem mask_idx_0 (k : Fin 4) (b : Fin 32768) (u : Fin 256) :
    idx_main_v9 (idx_main_v10 (idx_main_call0_v1 (ix3 k b u))) = ix2 b k :=
  funext fun a => Fin.ext (by match a with | ⟨0, _⟩ => rfl | ⟨1, _⟩ => rfl)
theorem mask_read_0 (k : Fin 4) (b : Fin 32768) (u : Fin 256) :
    val_main_call0_v1 (F := Ideal) a3 (ix3 k b u) = mbF a3 b k := by
  rw [val_main_call0_v1_apply, val_main_v10_apply, val_main_v9_apply, mask_idx_0]

theorem mask_idx_1 (k : Fin 4) (b : Fin 32768) (u : Fin 256) :
    idx_main_v9 (idx_main_v10 (idx_main_call1_v1 (ix3 k b u))) = ix2 b k :=
  funext fun a => Fin.ext (by match a with | ⟨0, _⟩ => rfl | ⟨1, _⟩ => rfl)
theorem mask_read_1 (k : Fin 4) (b : Fin 32768) (u : Fin 256) :
    val_main_call1_v1 (F := Ideal) a3 (ix3 k b u) = mbF a3 b k := by
  rw [val_main_call1_v1_apply, val_main_v10_apply, val_main_v9_apply, mask_idx_1]

theorem mask_idx_2 (k : Fin 4) (b : Fin 32768) (u : Fin 256) :
    idx_main_v9 (idx_main_v10 (idx_main_call2_v1 (ix3 k b u))) = ix2 b k :=
  funext fun a => Fin.ext (by match a with | ⟨0, _⟩ => rfl | ⟨1, _⟩ => rfl)
theorem mask_read_2 (k : Fin 4) (b : Fin 32768) (u : Fin 256) :
    val_main_call2_v1 (F := Ideal) a3 (ix3 k b u) = mbF a3 b k := by
  rw [val_main_call2_v1_apply, val_main_v10_apply, val_main_v9_apply, mask_idx_2]

theorem mask_idx_3 (k : Fin 4) (b : Fin 32768) (u : Fin 256) :
    idx_main_v9 (idx_main_v10 (idx_main_call3_v1 (ix3 k b u))) = ix2 b k :=
  funext fun a => Fin.ext (by match a with | ⟨0, _⟩ => rfl | ⟨1, _⟩ => rfl)
theorem mask_read_3 (k : Fin 4) (b : Fin 32768) (u : Fin 256) :
    val_main_call3_v1 (F := Ideal) a3 (ix3 k b u) = mbF a3 b k := by
  rw [val_main_call3_v1_apply, val_main_v10_apply, val_main_v9_apply, mask_idx_3]

theorem one_read (i : S4x32768x256.Idx) : val_main_call0_v2 (F := Ideal) i = lit 0x3F800000#32 := rfl
theorem zero_read_1 (i : S4x32768x256.Idx) : val_main_call1_v2 (F := Ideal) i = lit 0x00000000#32 := rfl
theorem zero_read_2 (i : S4x32768x256.Idx) : val_main_call2_v2 (F := Ideal) i = lit 0x00000000#32 := rfl
theorem zero_read_3 (i : S4x32768x256.Idx) : val_main_call3_v2 (F := Ideal) i = lit 0x00000000#32 := rfl

/-! ## The embedding row and the state product -/

/-- With every index word nonnegative the wrap of negative indices is the identity. -/
theorem wrap_read (h0 : ∀ i, 0 ≤ (a2 i).toInt) : val_main_v15 (F := Ideal) a2 = a2 :=
  Cert.MaskLib.wrap_id a2 (val_main_v11 (F := Ideal)) (val_main_v14 (F := Ideal) a2) (fun _ => rfl) h0

theorem idx16 (b : Fin 32768) (k : Fin 4) : idx_main_v16 (ix3 b k (0 : Fin 1)) = ix2 b k :=
  funext fun a => Fin.ext (by match a with | ⟨0, _⟩ => rfl | ⟨1, _⟩ => rfl)
theorem idx18 (k : Fin 4) (b : Fin 32768) (u : Fin 256) : idx_main_v18 (ix3 k b u) = ix3 b k u :=
  funext fun a => Fin.ext (by match a with | ⟨0, _⟩ => rfl | ⟨1, _⟩ => rfl | ⟨2, _⟩ => rfl)

/-- The gathered table, transposed, at (k, b, u): the table row the index word at (b, k) names, column u. -/
theorem emb_read (h0 : ∀ i, 0 ≤ (a2 i).toInt) (k : Fin 4) (b : Fin 32768) (u : Fin 256) :
    val_main_v18 (F := Ideal) a2 a7 (ix3 k b u) = emF a2 a7 b k u := by
  rw [val_main_v18_apply, idx18]
  unfold val_main_v17
  rw [gather_read, val_main_v16_apply, idx16, wrap_read a2 h0]

/-- The state times the embedding row (ones where the edge is masked out), at (k, b, u). -/
theorem s_read (h0 : ∀ i, 0 ≤ (a2 i).toInt) (k : Fin 4) (b : Fin 32768) (u : Fin 256) :
    val_main_v20 (F := Ideal) a1 a2 a3 a7 (ix3 k b u) = stF a1 b k u * emSel (mbF a3 b k) (emF a2 a7 b k) u := by
  rw [val_main_v20_apply, val_main_v19_apply, mask_read_0, emb_read a2 a7 h0, one_read]
  rfl

/-! ## The recurrent projection -/

theorem lidx21 (k : Fin 4) (b : Fin 32768) (v : Fin 768) (u : Fin 256) : lidx_main_v21 (ix3 k b v) u = ix3 k b u :=
  funext fun a => Fin.ext (by match a with | ⟨0, _⟩ => rfl | ⟨1, _⟩ => rfl | ⟨2, _⟩ => rfl)
theorem ridx21 (k : Fin 4) (b : Fin 32768) (v : Fin 768) (u : Fin 256) : ridx_main_v21 (ix3 k b v) u = ix3 k u v :=
  funext fun a => Fin.ext (by match a with | ⟨0, _⟩ => rfl | ⟨1, _⟩ => rfl | ⟨2, _⟩ => rfl)
theorem idx24 (k : Fin 4) (b : Fin 32768) (v : Fin 768) :
    idx_main_v22 (idx_main_v23 (idx_main_v24 (ix3 k b v))) = ix2 (brow k) v :=
  funext fun a => Fin.ext (by
    match a with
    | ⟨0, _⟩ => exact Nat.add_comm 1 k.val
    | ⟨1, _⟩ => rfl)

/-- The recurrent projection at (k, b, v): the state product's row times the recurrent weights of edge type k, plus
    bias row k + 1. -/
theorem rc_read (h0 : ∀ i, 0 ≤ (a2 i).toInt) (k : Fin 4) (b : Fin 32768) (v : Fin 768) :
    val_main_v25 (F := Ideal) a1 a2 a3 a5 a6 a7 (ix3 k b v) = recur (fun u => stF a1 b k u * emSel (mbF a3 b k) (emF a2 a7 b k) u) (RF a5 k) (bsF a6 (brow k)) (v) := by
  rw [val_main_v25_apply, val_main_v21_apply, val_main_v24_apply, val_main_v23_apply, val_main_v22_apply, idx24]
  simp only [lidx21, ridx21, s_read a1 a2 a3 a7 h0]
  rfl

/-! ## The gates and the candidate's recurrent part -/

theorem idx30 (k : Fin 4) (b : Fin 32768) (q : Fin 256) :
    idx_main_v6 (idx_main_v29 (idx_main_v30 (ix3 k b q))) = ix2 b (cz q) :=
  funext fun a => Fin.ext (by match a with | ⟨0, _⟩ => rfl | ⟨1, _⟩ => rfl)
theorem idx39 (k : Fin 4) (b : Fin 32768) (q : Fin 256) :
    idx_main_v7 (idx_main_v38 (idx_main_v39 (ix3 k b q))) = ix2 b (cr q) :=
  funext fun a => Fin.ext (by match a with | ⟨0, _⟩ => rfl | ⟨1, _⟩ => rfl)
theorem idx26 (k : Fin 4) (b : Fin 32768) (q : Fin 256) : idx_main_v26 (ix3 k b q) = ix3 k b (cz q) :=
  funext fun a => Fin.ext (by match a with | ⟨0, _⟩ => rfl | ⟨1, _⟩ => rfl | ⟨2, _⟩ => rfl)
theorem idx27 (k : Fin 4) (b : Fin 32768) (q : Fin 256) : idx_main_v27 (ix3 k b q) = ix3 k b (cr q) :=
  funext fun a => Fin.ext (by match a with | ⟨0, _⟩ => rfl | ⟨1, _⟩ => rfl | ⟨2, _⟩ => rfl)
theorem idx28 (k : Fin 4) (b : Fin 32768) (q : Fin 256) : idx_main_v28 (ix3 k b q) = ix3 k b (ch q) :=
  funext fun a => Fin.ext (by match a with | ⟨0, _⟩ => rfl | ⟨1, _⟩ => rfl | ⟨2, _⟩ => rfl)

/-- The update gate at (k, b, q): the logistic function, written through exp, of x_z + rc_k at column q. -/
theorem z_read (h0 : ∀ i, 0 ≤ (a2 i).toInt) (k : Fin 4) (b : Fin 32768) (q : Fin 256) :
    val_main_v37 (F := Ideal) a0 a1 a2 a3 a4 a5 a6 a7 (ix3 k b q) = gateE (recur (xinF a0 b) (WF a4) (bsF a6 0) (cz q) + recur (fun u => stF a1 b k u * emSel (mbF a3 b k) (emF a2 a7 b k) u) (RF a5 k) (bsF a6 (brow k)) (cz q)) := by
  rw [val_main_v37_apply, val_main_v36_apply, val_main_cst_2_apply, val_main_v35_apply, val_main_v34_apply,
    val_main_cst_1_apply, val_main_v33_apply, val_main_v32_apply, val_main_v31_apply, val_main_v30_apply,
    val_main_v29_apply, val_main_v6_apply, idx30, x_read, val_main_v26_apply, idx26, rc_read a1 a2 a3 a5 a6 a7 h0]
  rfl

/-- The reset gate at (k, b, q): the logistic function of x_r + rc_k at column 256 + q. -/
theorem r_read (h0 : ∀ i, 0 ≤ (a2 i).toInt) (k : Fin 4) (b : Fin 32768) (q : Fin 256) :
    val_main_v46 (F := Ideal) a0 a1 a2 a3 a4 a5 a6 a7 (ix3 k b q) = gateE (recur (xinF a0 b) (WF a4) (bsF a6 0) (cr q) + recur (fun u => stF a1 b k u * emSel (mbF a3 b k) (emF a2 a7 b k) u) (RF a5 k) (bsF a6 (brow k)) (cr q)) := by
  rw [val_main_v46_apply, val_main_v45_apply, val_main_cst_4_apply, val_main_v44_apply, val_main_v43_apply,
    val_main_cst_3_apply, val_main_v42_apply, val_main_v41_apply, val_main_v40_apply, val_main_v39_apply,
    val_main_v38_apply, val_main_v7_apply, idx39, x_read, val_main_v27_apply, idx27, rc_read a1 a2 a3 a5 a6 a7 h0]
  rfl

/-! ## The three selected terms -/

theorem selH_read (h0 : ∀ i, 0 ≤ (a2 i).toInt) (k : Fin 4) (b : Fin 32768) (q : Fin 256) :
    val_main_v48 (F := Ideal) a0 a1 a2 a3 a4 a5 a6 a7 (ix3 k b q)
      = selH (mbF a3 b k) (emF a2 a7 b k) (stF a1 b k) (RF a5 k) (bsF a6 (brow k)) (recur (xinF a0 b) (WF a4) (bsF a6 0) (cr q)) q := by
  rw [val_main_v48_apply, mask_read_1, val_main_v47_apply, r_read a0 a1 a2 a3 a4 a5 a6 a7 h0, val_main_v28_apply, idx28,
    rc_read a1 a2 a3 a5 a6 a7 h0, zero_read_1]
  rfl

theorem selZH_read (h0 : ∀ i, 0 ≤ (a2 i).toInt) (k : Fin 4) (b : Fin 32768) (q : Fin 256) :
    val_main_v51 (F := Ideal) a0 a1 a2 a3 a4 a5 a6 a7 (ix3 k b q)
      = selZH (mbF a3 b k) (emF a2 a7 b k) (stF a1 b k) (RF a5 k) (bsF a6 (brow k)) (recur (xinF a0 b) (WF a4) (bsF a6 0) (cz q)) q := by
  rw [val_main_v51_apply, mask_read_2, val_main_v50_apply, z_read a0 a1 a2 a3 a4 a5 a6 a7 h0, s_read a1 a2 a3 a7 h0, zero_read_2]
  rfl

theorem selZ_read (h0 : ∀ i, 0 ≤ (a2 i).toInt) (k : Fin 4) (b : Fin 32768) (q : Fin 256) :
    val_main_v53 (F := Ideal) a0 a1 a2 a3 a4 a5 a6 a7 (ix3 k b q)
      = selZ (mbF a3 b k) (emF a2 a7 b k) (stF a1 b k) (RF a5 k) (bsF a6 (brow k)) (recur (xinF a0 b) (WF a4) (bsF a6 0) (cz q)) q := by
  rw [val_main_v53_apply, mask_read_3, z_read a0 a1 a2 a3 a4 a5 a6 a7 h0, zero_read_3]
  rfl

/-! ## The three sums over the edge types -/

theorem idx49 (b : Fin 32768) (q : Fin 256) (k : Fin 4) : idx_main_v49 (ix2 b q) k = ix3 k b q :=
  funext fun a => Fin.ext (by match a with | ⟨0, _⟩ => rfl | ⟨1, _⟩ => rfl | ⟨2, _⟩ => rfl)
theorem idx52 (b : Fin 32768) (q : Fin 256) (k : Fin 4) : idx_main_v52 (ix2 b q) k = ix3 k b q :=
  funext fun a => Fin.ext (by match a with | ⟨0, _⟩ => rfl | ⟨1, _⟩ => rfl | ⟨2, _⟩ => rfl)
theorem idx54 (b : Fin 32768) (q : Fin 256) (k : Fin 4) : idx_main_v54 (ix2 b q) k = ix3 k b q :=
  funext fun a => Fin.ext (by match a with | ⟨0, _⟩ => rfl | ⟨1, _⟩ => rfl | ⟨2, _⟩ => rfl)

theorem accH_read (h0 : ∀ i, 0 ≤ (a2 i).toInt) (b : Fin 32768) (q : Fin 256) :
    val_main_v49 (F := Ideal) a0 a1 a2 a3 a4 a5 a6 a7 (ix2 b q)
      = lit 0x00000000#32 + ∑ k : Fin 4, selH (mbF a3 b k) (emF a2 a7 b k) (stF a1 b k) (RF a5 k) (bsF a6 (brow k)) (recur (xinF a0 b) (WF a4) (bsF a6 0) (cr q)) q := by
  rw [val_main_v49_apply]
  simp only [idx49, selH_read a0 a1 a2 a3 a4 a5 a6 a7 h0]
  rfl

theorem accZH_read (h0 : ∀ i, 0 ≤ (a2 i).toInt) (b : Fin 32768) (q : Fin 256) :
    val_main_v52 (F := Ideal) a0 a1 a2 a3 a4 a5 a6 a7 (ix2 b q)
      = lit 0x00000000#32 + ∑ k : Fin 4, selZH (mbF a3 b k) (emF a2 a7 b k) (stF a1 b k) (RF a5 k) (bsF a6 (brow k)) (recur (xinF a0 b) (WF a4) (bsF a6 0) (cz q)) q := by
  rw [val_main_v52_apply]
  simp only [idx52, selZH_read a0 a1 a2 a3 a4 a5 a6 a7 h0]
  rfl

theorem accZ_read (h0 : ∀ i, 0 ≤ (a2 i).toInt) (b : Fin 32768) (q : Fin 256) :
    val_main_v54 (F := Ideal) a0 a1 a2 a3 a4 a5 a6 a7 (ix2 b q)
      = lit 0x00000000#32 + ∑ k : Fin 4, selZ (mbF a3 b k) (emF a2 a7 b k) (stF a1 b k) (RF a5 k) (bsF a6 (brow k)) (recur (xinF a0 b) (WF a4) (bsF a6 0) (cz q)) q := by
  rw [val_main_v54_apply]
  simp only [idx54, selZ_read a0 a1 a2 a3 a4 a5 a6 a7 h0]
  rfl

/-! ## The closing expression -/

theorem idx8 (b : Fin 32768) (q : Fin 256) : idx_main_v8 (ix2 b q) = ix2 b (ch q) :=
  funext fun a => Fin.ext (by match a with | ⟨0, _⟩ => rfl | ⟨1, _⟩ => rfl)

theorem quarter_55 (i : S32768x256.Idx) : val_main_v55 (F := Ideal) i = lit 0x3E800000#32 := rfl
theorem quarter_59 (i : S32768x256.Idx) : val_main_v59 (F := Ideal) i = lit 0x3E800000#32 := rfl
theorem quarter_64 (i : S32768x256.Idx) : val_main_v64 (F := Ideal) i = lit 0x3E800000#32 := rfl
theorem one_61 (i : S32768x256.Idx) : val_main_v61 (F := Ideal) i = lit 0x3F800000#32 := rfl

end Read

/-- The reference's result at (b, u) is the specification's cell in its selector spelling, when every index word is
    nonnegative. -/
theorem ref_cell
    (a0 : (⟨S32768x256, .f32⟩ : BufTy).Contents (Elt Ideal)) (a1 : (⟨S4x32768x256, .f32⟩ : BufTy).Contents (Elt Ideal))
    (a2 : (⟨S32768x4, .i32⟩ : BufTy).Contents (Elt Ideal)) (a3 : (⟨S32768x4, .i1⟩ : BufTy).Contents (Elt Ideal))
    (a4 : (⟨S256x768, .f32⟩ : BufTy).Contents (Elt Ideal)) (a5 : (⟨S4x256x768, .f32⟩ : BufTy).Contents (Elt Ideal))
    (a6 : (⟨S5x768, .f32⟩ : BufTy).Contents (Elt Ideal)) (a7 : (⟨S40x256, .f32⟩ : BufTy).Contents (Elt Ideal))
    (h0 : ∀ i, 0 ≤ (a2 i).toInt) (b : Fin 32768) (u : Fin 256) :
    val_main_v66 (F := Ideal) a0 a1 a2 a3 a4 a5 a6 a7 (ix2 b u) =
      Cert.GruSpec.cellR
        (fun k u' => a7 (ix2 (Cert.GruSpec.rowOf (a2 (ix2 b k))) u'))
        (fun k u' => a1 (ix3 k b u'))
        (fun k u' v => a5 (ix3 k u' v))
        (fun j v => a6 (ix2 j v))
        (fun d => a0 (ix2 b d))
        (fun d v => a4 (ix2 d v))
        (fun k => a3 (ix2 b k)) u := by
  rw [val_main_v66_apply, val_main_v63_apply, val_main_v62_apply, one_61, val_main_v60_apply,
    accZ_read a0 a1 a2 a3 a4 a5 a6 a7 h0, quarter_59, val_main_v58_apply, val_main_v57_apply, val_main_v8_apply, idx8, x_read,
    val_main_v56_apply, accH_read a0 a1 a2 a3 a4 a5 a6 a7 h0, quarter_55, val_main_v65_apply, accZH_read a0 a1 a2 a3 a4 a5 a6 a7 h0, quarter_64]
  rfl

end Cert.RefCell

end
-- ==== Proof.SpecLaws.lean ====
/-
  The laws that join the two spellings of the cell (Spec.lean).
  * The bit patterns 0x3F000000 and 0x3F800000 are the numbers 1/2 and 1.
  * 1/2 * tanh (t/2) + 1/2 = 1 / (1 + exp (-t)) on every extended real: on a real t this is the identity
    tanh y = (e^y - e^-y)/(e^y + e^-y) with y = t/2; at +infinity both sides are 1, at -infinity both are 0.
  * A mask bit read as the number 0 or 1 and used as a factor does what selecting by the bit does: 1 * a = a, and
    0 * a = 0 for every extended real a, the infinities included; under a set bit the replaced embedding row is the row.
  * Four terms added one after the other onto zero are zero plus their sum.
  * The indicator row of an index word e that is nonnegative has its single 1 at column min e 39, so the indicator row
    times the table is that table row.
-/
import proofs.«415521_j60309930770883_3_alg».proof.Proof.Spec

noncomputable section

open scoped BigOperators

namespace Cert.GruSpec

open Idealize.ShloMosaic

/-! ## Literals -/

theorem lit_half : lit 0x3F000000#32 = ((2⁻¹ : ℝ) : EReal) := by
  simp [lit, Ideal.ofBits, Ideal.ieee]
  rw [← EReal.coe_mul]
  exact congrArg _ (by norm_num)

theorem lit_one : lit 0x3F800000#32 = 1 := by
  simp [lit, Ideal.ofBits, Ideal.ieee]
  rw [← EReal.coe_mul, ← EReal.coe_one]
  exact congrArg _ (by norm_num)

theorem lit_zero : lit 0x00000000#32 = 0 := Ideal.ofBits_zero_f32

/-! ## The logistic function -/

theorem real_logistic (r : ℝ) : 2⁻¹ * Real.tanh (2⁻¹ * r) + 2⁻¹ = (1 + Real.exp (-r))⁻¹ := by
  have hpos : 0 < Real.exp (2⁻¹ * r) := Real.exp_pos _
  have h1 : Real.exp (-(2⁻¹ * r)) = (Real.exp (2⁻¹ * r))⁻¹ := Real.exp_neg _
  have h2 : Real.exp (-r) = (Real.exp (2⁻¹ * r))⁻¹ * (Real.exp (2⁻¹ * r))⁻¹ := by
    rw [← h1, ← Real.exp_add]; congr 1; ring
  rw [Real.tanh_eq_sinh_div_cosh, Real.sinh_eq, Real.cosh_eq, h1, h2]
  field_simp
  ring

theorem gateT_eq_gateE (t : EReal) : gateT t = gateE t := by
  unfold gateT gateE
  rw [lit_half, lit_one]
  have hhalf : (0 : ℝ) < 2⁻¹ := by norm_num
  induction t using EReal.rec with
  | bot =>
    rw [EReal.coe_mul_bot_of_pos hhalf, EReal.neg_bot]
    show ((2⁻¹ : ℝ) : EReal) * (-1 : EReal) + ((2⁻¹ : ℝ) : EReal) = Ideal.div 1 (1 + (⊤ : EReal))
    rw [EReal.add_top_of_ne_bot (by decide), Ideal.div, if_neg (by decide), EReal.inv_top, mul_zero]
    rw [show (-1 : EReal) = ((-1 : ℝ) : EReal) by rw [EReal.coe_neg, EReal.coe_one], ← EReal.coe_mul, ← EReal.coe_add, ← EReal.coe_zero]
    exact congrArg _ (by norm_num)
  | coe r =>
    rw [← EReal.coe_mul, ← EReal.coe_neg]
    show ((2⁻¹ : ℝ) : EReal) * ((Real.tanh (2⁻¹ * r) : ℝ) : EReal) + ((2⁻¹ : ℝ) : EReal)
      = Ideal.div 1 (1 + ((Real.exp (-r) : ℝ) : EReal))
    have hne : (1 + Real.exp (-r) : ℝ) ≠ 0 := (add_pos one_pos (Real.exp_pos _)).ne'
    rw [← EReal.coe_one, ← EReal.coe_add, Ideal.div_coe hne, ← EReal.coe_mul, ← EReal.coe_mul, ← EReal.coe_add]
    exact congrArg _ (by rw [real_logistic, one_mul, one_div])
  | top =>
    rw [EReal.coe_mul_top_of_pos hhalf, EReal.neg_top]
    show ((2⁻¹ : ℝ) : EReal) * (1 : EReal) + ((2⁻¹ : ℝ) : EReal) = Ideal.div 1 (1 + (0 : EReal))
    rw [add_zero, Ideal.div, if_neg (by norm_num), inv_one, mul_one, mul_one, ← EReal.coe_add, ← EReal.coe_one]
    exact congrArg _ (by norm_num)

/-! ## The mask bit as a number -/

theorem mfloat_one : mfloat 1#1 = 1 := by
  show (((((1#1 : BitVec 1).setWidth 32).toInt : ℝ)) : EReal) = 1
  rw [show ((1#1 : BitVec 1).setWidth 32).toInt = 1 by decide]
  norm_num

theorem mfloat_zero : mfloat 0#1 = 0 := by
  show (((((0#1 : BitVec 1).setWidth 32).toInt : ℝ)) : EReal) = 0
  rw [show ((0#1 : BitVec 1).setWidth 32).toInt = 0 by decide]
  norm_num

/-- A bit widened to a word is nonzero exactly when the bit is set. -/
theorem ne_zero_widen (b : BitVec 1) : IntOp.cmpi .ne (b.setWidth 32) 0#32 = b := by
  rcases BitVec.eq_zero_or_eq_one b with rfl | rfl <;> decide

/-! ## Mask as a factor and mask as a selector -/

theorem emSel_one (em : Fin 256 → EReal) : emSel 1#1 em = em := by
  funext u; unfold emSel Scalar.select; exact if_pos rfl

section
variable (mb : BitVec 1) (em st : Fin 256 → EReal) (Rk : Fin 256 → Fin 768 → EReal) (bk : Fin 768 → EReal)

theorem termH_eq_selH (xr : EReal) (q : Fin 256) :
    termH (mfloat mb) em st Rk bk xr q = selH mb em st Rk bk xr q := by
  rcases BitVec.eq_zero_or_eq_one mb with rfl | rfl
  · unfold termH selH Scalar.select
    rw [mfloat_zero, zero_mul, if_neg (by decide), lit_zero]
  · unfold termH selH Scalar.select
    rw [mfloat_one, one_mul, if_pos (by decide), emSel_one, gateT_eq_gateE]

theorem termZH_eq_selZH (xz : EReal) (q : Fin 256) :
    termZH (mfloat mb) em st Rk bk xz q = selZH mb em st Rk bk xz q := by
  rcases BitVec.eq_zero_or_eq_one mb with rfl | rfl
  · unfold termZH selZH Scalar.select
    rw [mfloat_zero, zero_mul, if_neg (by decide), lit_zero]
  · unfold termZH selZH Scalar.select
    rw [mfloat_one, one_mul, if_pos (by decide), emSel_one, gateT_eq_gateE]

theorem termZ_eq_selZ (xz : EReal) (q : Fin 256) :
    termZ (mfloat mb) em st Rk bk xz q = selZ mb em st Rk bk xz q := by
  rcases BitVec.eq_zero_or_eq_one mb with rfl | rfl
  · unfold termZ selZ Scalar.select
    rw [mfloat_zero, zero_mul, if_neg (by decide), lit_zero]
  · unfold termZ selZ Scalar.select
    rw [mfloat_one, one_mul, if_pos (by decide), emSel_one, gateT_eq_gateE]
end

/-! ## The whole element -/

theorem cellK_eq_cellR (em st : Fin 4 → Fin 256 → EReal) (R : Fin 4 → Fin 256 → Fin 768 → EReal)
    (bs : Fin 5 → Fin 768 → EReal) (xin : Fin 256 → EReal) (W : Fin 256 → Fin 768 → EReal) (mb : Fin 4 → BitVec 1)
    (q : Fin 256) :
    cellK em st R bs xin W (fun k => mfloat (mb k)) q = cellR em st R bs xin W mb q := by
  unfold cellK cellR
  simp only [termH_eq_selH, termZH_eq_selZH, termZ_eq_selZ, Fin.sum_univ_four, add_assoc]
  rfl

/-! ## The indicator row of a nonnegative index word -/

theorem clipIdx_toNat (e : BitVec 32) (h0 : 0 ≤ e.toInt) : (clipIdx e).toNat = min e.toInt.toNat 39 := by
  unfold clipIdx
  have hm : (IntOp.maxsi 0#32 e).toNat = e.toInt.toNat := WordArith.toNat_maxsi_zero e
  have hlt : (IntOp.maxsi 0#32 e).toNat < 2 ^ 31 := by
    rw [hm]
    have hc := BitVec.toInt_eq_toNat_cond e
    have := e.isLt
    split at hc <;> omega
  rw [WordArith.toNat_minsi_of_lt 39#32 _ (by decide) hlt, hm]
  show min 39 e.toInt.toNat = min e.toInt.toNat 39
  exact Nat.min_comm _ _

theorem ohf_eq (e : BitVec 32) (h0 : 0 ≤ e.toInt) (v : Fin 128) :
    ohf e v = if v.val = min e.toInt.toNat 39 then 1 else 0 := by
  unfold ohf
  have hc := clipIdx_toNat e h0
  have hv32 : v.val % 2 ^ 32 = v.val := Nat.mod_eq_of_lt (by have := v.isLt; omega)
  by_cases hv : v.val = min e.toInt.toNat 39
  · rw [if_pos hv]
    have h1 : IntOp.cmpi .eq (BitVec.ofNat 32 v.val) (clipIdx e) = 1#1 := by
      rw [StableHlo.Predicate.cmpi_eq_iff]
      apply BitVec.eq_of_toNat_eq
      rw [BitVec.toNat_ofNat, hc, hv32, hv]
    rw [h1, mfloat_one]
  · rw [if_neg hv]
    have h1 : IntOp.cmpi .eq (BitVec.ofNat 32 v.val) (clipIdx e) = 0#1 := by
      apply ValueIdx.eq_zero_of_ne_one
      rw [StableHlo.Predicate.cmpi_eq_iff]
      intro h
      apply hv
      have h2 := congrArg BitVec.toNat h
      rw [BitVec.toNat_ofNat, hc, hv32] at h2
      exact h2
    rw [h1, mfloat_zero]

/-- The indicator row of a nonnegative index word times the table is the table's row `min e 39`. -/
theorem embK_eq (tbl : Fin 128 → Fin 256 → EReal) (e : BitVec 32) (h0 : 0 ≤ e.toInt) (u : Fin 256) :
    embK tbl e u = tbl ⟨min e.toInt.toNat 39, by omega⟩ u := by
  unfold embK
  rw [Finset.sum_eq_single (⟨min e.toInt.toNat 39, by omega⟩ : Fin 128)]
  · rw [ohf_eq e h0, if_pos rfl, one_mul]
  · intro v _ hv
    rw [ohf_eq e h0, if_neg (fun h => hv (Fin.ext h)), zero_mul]
  · intro h
    exact absurd (Finset.mem_univ _) h

end Cert.GruSpec

end
-- ==== Proof.PreDecode.lean ====
/-
  The precondition read back: among its conjuncts is "every index word is at least zero, read signed", printed as the
  conjunction, reduced by "and" over the whole array, of the signed compares against a zero splat. If the precondition's
  one bit is set then so is that last conjunct, and then every compare is set.
-/
import proofs.«415521_j60309930770883_3_alg».proof.Pre_finite_inputs
import proofs.«415521_j60309930770883_3_alg».proof.Proof.Gen.Pre_finite_inputs
import proofs.«415521_j60309930770883_3_alg».proof.Proof.LibMask
import Idealize.ShloMosaic.PureOps.Ideal
import Idealize.ShloMosaic.Lib.ValueIdx

noncomputable section

namespace Cert.PreDecode

open Idealize.ShloMosaic Idealize.ShloMosaic.ValueIdx Cert.Pre_finite_inputs

instance : Subsingleton S_.Idx := ⟨fun a b => funext fun d => d.elim0⟩

/-- Under the precondition every index word is nonnegative. -/
theorem nonneg_of_pre [Facts] (a0 : FVec Ideal S32768x256 .f32) (a1 : FVec Ideal S4x32768x256 .f32) (a2 : IVec S32768x4 32)
    (a3 : IVec S32768x4 1) (a4 : FVec Ideal S256x768 .f32) (a5 : FVec Ideal S4x256x768 .f32) (a6 : FVec Ideal S5x768 .f32)
    (a7 : FVec Ideal S40x256 .f32) (h : fn (F := Ideal) a0 a1 a2 a3 a4 a5 a6 a7 = fun _ => 1#1) (i : S32768x4.Idx) :
    0 ≤ (a2 i).toInt := by
  have e := congrFun h ix0
  unfold fn fn_part1 at e
  have h2 := (Cert.MaskLib.andi_apply_eq_one _ _ _ e).2
  have h3 := Cert.MaskLib.all_sge_const a2 _ 0#32 (fun _ => rfl) _ _ _ ix0 h2 i
  have hz : (0#32 : BitVec 32).toInt = 0 := by decide
  rw [hz] at h3
  exact h3

end Cert.PreDecode

end
-- ==== Proof.Bridge.lean ====
/-
  The two programs compute one function. The kernel's output array is the cell in its "factor" spelling of the arrays the
  region finds: the arguments themselves, the index words and mask bits transposed (the bits widened to words), and the
  table padded with zero rows. With every index word nonnegative the indicator-row lookup in the padded table is the
  table's row min e 39, a row the padding left as it was; "widened bit is not zero" is the bit; and the factor spelling
  is the selector spelling, which is what the reference's result stage is at every element.
-/
import proofs.«415521_j60309930770883_3_alg».proof.Proof.KFinal
import proofs.«415521_j60309930770883_3_alg».proof.Proof.HostReads
import proofs.«415521_j60309930770883_3_alg».proof.Proof.RefCell
import proofs.«415521_j60309930770883_3_alg».proof.Proof.SpecLaws
import proofs.«415521_j60309930770883_3_alg».proof.Proof.PreDecode

noncomputable section

namespace Cert.Bridge

open Idealize.ShloMosaic Idealize.ShloMosaic.TcCoe Idealize.SL.Sem Idealize.ShloMosaic.ValueIdx Cert.GruSpec
open Cert.KernelIdeal Cert.KernelIdeal.Gen Cert.KernelIdeal.KStmt

variable (m : (ℓ : Loc nD τ sig) → Buf (Elt Ideal) ℓ) (c : Dev nD)

/-- The kernel's array function is the reference's result stage of the same arguments. -/
theorem value_eq
    (hp : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    Cert.KernelIdeal.KFinal.G m c
      = Cert.ReferenceIdeal.Read.val_main_v66 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have h0 := Cert.PreDecode.nonneg_of_pre _ _ _ _ _ _ _ _ hp
  funext i
  obtain ⟨b, u, rfl⟩ : ∃ (b : Fin 32768) (u : Fin 256), i = ix2 b u := ⟨i 0, i 1, eq_ix2 i⟩
  rw [Cert.RefCell.ref_cell _ _ _ _ _ _ _ _ h0 b u, ← cellK_eq_cellR]
  show arrayCell (V m c main_arg0) (V m c main_arg1) (V m c main_v6) (V m c main_v8) (V m c main_v4) (V m c main_v5)
    (V m c main_arg6) (V m c main_v3) b u = _
  unfold arrayCell
  have hem : (fun (k : Fin 4) (u : Fin 256) => embK (fun e u' => V m c main_v3 (ix2 e u')) (V m c main_v6 (ix2 k b)) u)
      = fun k u' => m ((c : Thread nD τ).loc main_arg7) (ix2 (rowOf (m ((c : Thread nD τ).loc main_arg2) (ix2 b k))) u') := by
    funext k u'
    rw [Cert.KernelIdeal.HostReads.V_et m c k b, embK_eq _ _ (h0 _)]
    show V m c main_v3 (ix2 (⟨min (m ((c : Thread nD τ).loc main_arg2) (ix2 b k)).toInt.toNat 39, by omega⟩ : Fin 128) u') = _
    rw [Cert.KernelIdeal.HostReads.V_emb m c _ u', dif_pos (show min (m ((c : Thread nD τ).loc main_arg2) (ix2 b k)).toInt.toNat 39 < 40 by omega)]
  have hmk : (fun (k : Fin 4) => mfloat (IntOp.cmpi .ne (V m c main_v8 (ix2 k b)) 0#32))
      = fun k => mfloat (m ((c : Thread nD τ).loc main_arg3) (ix2 b k)) := by
    funext k
    rw [Cert.KernelIdeal.HostReads.V_mask m c k b, ne_zero_widen]
  rw [hem, hmk, V_main_arg0, V_main_arg1, V_main_arg6, Cert.KernelIdeal.HostReads.V_W, Cert.KernelIdeal.HostReads.V_R]

end Cert.Bridge

end
-- ==== Proof.lean ====
/-
  A gated graph recurrent cell on a batch of 32768 rows with four edge types, as a Pallas kernel over sixteen blocks of
  2048 rows, against its jnp reference; the claim is equality of results over the extended reals, under finite float inputs
  and nonnegative edge-type indices (the index range is the evident domain of a lookup in a 40-row table: below zero the
  reference wraps an index where the kernel clips it; above 39 both programs read row 39).

  For a batch row and an output column, each edge type k contributes s_k = state row * embedding row, the recurrent
  projection rc_k = s_k R_k + b_(k+1), the gates z_k, r_k = logistic (x + rc_k) on the update and reset thirds, and three
  masked terms; the result is (1 - accZ / 4) * tanh (x_h + accH / 4) + accZH / 4 with x the input projection.
  The kernel spells the logistic function through tanh, the mask as a factor 0 or 1, the table lookup as an indicator row
  times the zero-padded table with the index clipped to [0, 39], and adds the four terms one after the other; the reference
  spells it through exp, selects by the mask bit (replacing a masked-out edge's embedding row by ones), gathers the row,
  and sums over k. The two are one function of the arguments:
  * 1/2 tanh (t/2) + 1/2 = 1 / (1 + exp (-t)) on every extended real, the infinities included;
  * 0 * a = 0 and 1 * a = a for every extended real a, so a masked-out edge contributes zero whatever its state product is;
  * the indicator row of a nonnegative index e, times the padded table, is the table's row min e 39;
  * sums of extended reals may be regrouped.
  The kernel's frames and its block-by-block value come from the generated frame and value modules, the reference's run
  and its operations read at an index from the generated run and read modules; preserves has no conjunct.
-/
import proofs.«415521_j60309930770883_3_alg».proof.Defs
import proofs.«415521_j60309930770883_3_alg».proof.Proof.Gen.Kernel
import proofs.«415521_j60309930770883_3_alg».proof.Proof.Gen.Kernel.Skeleton
import proofs.«415521_j60309930770883_3_alg».proof.Proof.Gen.Kernel.Launch
import proofs.«415521_j60309930770883_3_alg».proof.Proof.Gen.Kernel.Points
import proofs.«415521_j60309930770883_3_alg».proof.Proof.Gen.Kernel.Frame
import proofs.«415521_j60309930770883_3_alg».proof.Proof.Gen.KernelIdeal
import proofs.«415521_j60309930770883_3_alg».proof.Proof.Gen.KernelIdeal.Skeleton
import proofs.«415521_j60309930770883_3_alg».proof.Proof.Gen.KernelIdeal.Launch
import proofs.«415521_j60309930770883_3_alg».proof.Proof.Gen.KernelIdeal.Points
import proofs.«415521_j60309930770883_3_alg».proof.Proof.Gen.KernelIdeal.Frame
import proofs.«415521_j60309930770883_3_alg».proof.Proof.Gen.ReferenceIdeal
import proofs.«415521_j60309930770883_3_alg».proof.Proof.Gen.Pre_finite_inputs
import proofs.«415521_j60309930770883_3_alg».proof.Proof.Gen.KernelIdeal.Value
import proofs.«415521_j60309930770883_3_alg».proof.Proof.Gen.ReferenceIdeal.Run
import proofs.«415521_j60309930770883_3_alg».proof.Proof.Gen.ReferenceIdeal.Read
import proofs.«415521_j60309930770883_3_alg».proof.Proof.KCell
import proofs.«415521_j60309930770883_3_alg».proof.Proof.KFinal
import proofs.«415521_j60309930770883_3_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the cell of the arguments in every element of the result. -/
theorem algebraic : Cert.algebraic_KernelIdeal_ReferenceIdeal := by
  intro m ρ m' ρ' hpre hagree
  refine ⟨fun c => Cert.KernelIdeal.KFinal.G m c, Cert.KernelIdeal.KFinal.run m ρ Cert.KernelIdeal.KCell.cell, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.value_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
